-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S6144x768 : Shape := ⟨2, ![6144, 768]⟩
abbrev S_ : Shape := ⟨0, ![]⟩

class Facts : Prop where
  bcast_S_S6144x768 : S_.BroadcastsInDim S6144x768 (![] : Fin 0 → Fin S6144x768.rank)
  reducesTo_S6144x768_S_d0_1 : S6144x768.ReducesTo [0, 1] S_
  h_S_ : 0 < S_.numel

variable [Facts]

def fn {F : FTy → Type} [FloatOps F] (main_arg0 : FVec F S6144x768 .f32) : IVec S_ 1 :=
  let main_v0 : FVec F S6144x768 .f32 := Host.absf main_arg0
  let main_cst : FVec F S_ .f32 := constant S_ .f32 0x7F800000#32
  let main_v1 : FVec F S6144x768 .f32 := broadcastInDim S6144x768 ![] bcast_S_S6144x768 main_cst
  let main_v2 : IVec S6144x768 1 := cmpf .olt main_v0 main_v1
  let main_c : IVec S_ 1 := constantI S_ 1 1#1
  let main_v3 : IVec S_ 1 := (fun x v => Host.reduce IntOp.andi x v reducesTo_S6144x768_S_d0_1 h_S_) main_v2 main_c
  main_v3
-- ==== Kernel.lean ====
abbrev S1536x768 : Shape := ⟨2, ![1536, 768]⟩
abbrev S1x768 : Shape := ⟨2, ![1, 768]⟩
abbrev S3x1x768 : Shape := ⟨3, ![3, 1, 768]⟩
abbrev S3 : Shape := ⟨1, ![3]⟩
abbrev S_ : Shape := ⟨0, ![]⟩
abbrev S768 : Shape := ⟨1, ![768]⟩
abbrev S1 : Shape := ⟨1, ![1]⟩
abbrev S1x1x768 : Shape := ⟨3, ![1, 1, 768]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | .local _ .vmem, ⟨3, _⟩ => ⟨S3x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v50 : BitVec 32 := Scalar.addi v2 c2_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v69 : BitVec 32 := Scalar.addi v2 c1_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  hamt_3 : (3#32 : BitVec 32).msb = false
  inb_S3_S1_1 : ∀ a, (![1] : Fin 1 → Nat) a + S1.size a ≤ S3.size a
  squeezes_S1_S_ : S1.Squeezes S_
  inb_S3x1x768_S1x1x768_1_0_0 : ∀ a, (![1, 0, 0] : Fin 3 → Nat) a + S1x1x768.size a ≤ S3x1x768.size a
  squeezes_S1x1x768_S1x768 : S1x1x768.Squeezes S1x768
  inb_S3_S1_0 : ∀ a, (![0] : Fin 1 → Nat) a + S1.size a ≤ S3.size a
  inb_S3x1x768_S1x1x768_0_0_0 : ∀ a, (![0, 0, 0] : Fin 3 → Nat) a + S1x1x768.size a ≤ S3x1x768.size a
  inb_S3_S1_2 : ∀ a, (![2] : Fin 1 → Nat) a + S1.size a ≤ S3.size a
  inb_S3x1x768_S1x1x768_2_0_0 : ∀ a, (![2, 0, 0] : Fin 3 → Nat) a + S1x1x768.size a ≤ S3x1x768.size a
  h_S1x1x768 : 0 < S1x1x768.numel
  shapeCasts_S1x1x768_S1x768 : S1x1x768.ShapeCasts S1x768
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6144x768 : Shape := ⟨2, ![6144, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S_, .f32⟩
  | .hbm, ⟨2, _⟩ => ⟨S768, .f32⟩
  | .hbm, ⟨3, _⟩ => ⟨S1x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S6144x768_S768_d0 : S6144x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Kernel.Proto.lean ====
/-
  Four devices, one collective: every device reduces its own block of rows to a row of column maxima,
  every device sends that row to each of the three others, and every device ends with the maximum of
  the four rows. This module fixes the vocabulary the rest of the proof is written over: the cyclic
  shifts of the mesh, the seven semaphore cells of a device (the entry barrier, three send cells, three
  receive cells), what each buffer holds at each stage, and the one-round schedule that says who pays
  which cell, how much, and what the owner of the cell receives with the payment.
-/
import proofs.«900911_g7700000000000912_dist_max_ax0_shard0_i_m1536_n768_v7x_i4_bf16_1_alg».proof.Proof.Gen.Kernel
import proofs.«900911_g7700000000000912_dist_max_ax0_shard0_i_m1536_n768_v7x_i4_bf16_1_alg».proof.Proof.Gen.Kernel.Skeleton
import proofs.«900911_g7700000000000912_dist_max_ax0_shard0_i_m1536_n768_v7x_i4_bf16_1_alg».proof.Proof.Gen.Kernel.Launch
import proofs.«900911_g7700000000000912_dist_max_ax0_shard0_i_m1536_n768_v7x_i4_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the collective's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The mesh as a cycle: `sh k c` is the device `k` places after `c` -/

def sh (k : ℕ) (c : Dev nD) : Dev nD := ⟨(c.val + k) % 4, Nat.mod_lt _ (by decide)⟩

theorem sh13 (c : Dev nD) : sh 1 (sh 3 c) = c := by revert c; decide
theorem sh31 (c : Dev nD) : sh 3 (sh 1 c) = c := by revert c; decide
theorem sh22 (c : Dev nD) : sh 2 (sh 2 c) = c := by revert c; decide

def shE1 : Dev nD ≃ Dev nD := ⟨sh 1, sh 3, sh31, sh13⟩
def shE2 : Dev nD ≃ Dev nD := ⟨sh 2, sh 2, sh22, sh22⟩
def shE3 : Dev nD ≃ Dev nD := ⟨sh 3, sh 1, sh13, sh31⟩

/-- The shift by `k + 1` as a permutation of the mesh, and its inverse the shift by `3 - k`. -/
def shE (k : Fin 3) : Dev nD ≃ Dev nD := ⟨sh (k.val + 1), sh (3 - k.val), by revert k; decide, by revert k; decide⟩

theorem sh_back (k : Fin 3) (c : Dev nD) : sh (k.val + 1) (sh (3 - k.val) c) = c := by revert k c; decide
theorem sh_forth (k : Fin 3) (c : Dev nD) : sh (3 - k.val) (sh (k.val + 1) c) = c := by revert k c; decide

/-- The kernel's six device computations: the three entry signals go one, two and three places on;
    the three copies go two, one and three places on, in that order. -/
theorem dev1_eq (c : Dev nD) : (⟨k0_dev1 c, k0_dev1_lt c⟩ : Dev nD) = sh 1 c :=
  Fin.ext ((by decide +kernel : ∀ c : Dev nD, k0_dev1 c = (sh 1 c).val) c)
theorem dev2_eq (c : Dev nD) : (⟨k0_dev2 c, k0_dev2_lt c⟩ : Dev nD) = sh 2 c :=
  Fin.ext ((by decide +kernel : ∀ c : Dev nD, k0_dev2 c = (sh 2 c).val) c)
theorem dev3_eq (c : Dev nD) : (⟨k0_dev3 c, k0_dev3_lt c⟩ : Dev nD) = sh 3 c :=
  Fin.ext ((by decide +kernel : ∀ c : Dev nD, k0_dev3 c = (sh 3 c).val) c)
theorem dev4_eq (c : Dev nD) : (⟨k0_dev4 c, k0_dev4_lt c⟩ : Dev nD) = sh 2 c :=
  Fin.ext ((by decide +kernel : ∀ c : Dev nD, k0_dev4 c = (sh 2 c).val) c)
theorem dev5_eq (c : Dev nD) : (⟨k0_dev5 c, k0_dev5_lt c⟩ : Dev nD) = sh 1 c :=
  Fin.ext ((by decide +kernel : ∀ c : Dev nD, k0_dev5 c = (sh 1 c).val) c)
theorem dev6_eq (c : Dev nD) : (⟨k0_dev6 c, k0_dev6_lt c⟩ : Dev nD) = sh 3 c :=
  Fin.ext ((by decide +kernel : ∀ c : Dev nD, k0_dev6 c = (sh 3 c).val) c)

/-! ## The memrefs -/

abbrev xM : Memref sig .tc .vmem S1536x768 .f32 := Memref.whole cc0_stg0_0
abbrev oM : Memref sig .tc .vmem S1x768 .f32 := Memref.whole cc0_stg1_0
/-- The row of column maxima of the device's own block. -/
abbrev lM : Memref sig .tc .vmem S1x768 .f32 := Memref.whole cc0_scratch0
/-- The three landing rows: row `i` receives from the device `i + 1` places before. -/
abbrev cM : Memref sig .tc .vmem S3x1x768 .f32 := Memref.whole cc0_scratch1

theorem inbC (i : Fin 3) : ∀ a, (![i.val, 0, 0] : Fin 3 → Nat) a + S1x1x768.size a ≤ S3x1x768.size a := by revert i; decide
theorem inbS (i : Fin 3) : ∀ a, (![i.val] : Fin 1 → Nat) a + S1.size a ≤ S3.size a := by revert i; decide

abbrev rectC (i : Fin 3) : Rect S3x1x768 := Rect.unit (s := S3x1x768) ![i.val, 0, 0] S1x1x768.size (inbC i)

/-- Landing row `i` as the kernel names it: a slice of the three-row buffer with the unit axis dropped. -/
abbrev slotM (i : Fin 3) : Memref sig .tc .vmem S1x768 .f32 :=
  (cM.slice (rectC i) (fun _ => rfl)).squeeze S1x768 squeezes_S1x1x768_S1x768

abbrev sendS (i : Fin 3) : DmaSem sig := ((cc0_scratch2.slice (Rect.unit (s := S3) ![i.val] S1.size (inbS i))).squeeze S_ squeezes_S1_S_).sem
abbrev recvS (i : Fin 3) : DmaSem sig := ((cc0_scratch3.slice (Rect.unit (s := S3) ![i.val] S1.size (inbS i))).squeeze S_ squeezes_S1_S_).sem
abbrev barS : Sem sig := (SemArray.scalar (sig.barrier 0 rfl) : Sems sig S_).sem

theorem sendS_val (i : Fin 3) : (sendS i).val = 2 + i.val := by revert i; decide
theorem recvS_val (i : Fin 3) : (recvS i).val = 5 + i.val := by revert i; decide

abbrev barCell (c : Dev nD) : GSem nD τ sig := ((c : Thread nD τ), .reg barS)
abbrev sendCell (c : Dev nD) (i : Fin 3) : GSem nD τ sig := ((c : Thread nD τ), .dma (sendS i))
abbrev recvCell (c : Dev nD) (i : Fin 3) : GSem nD τ sig := ((c : Thread nD τ), .dma (recvS i))

/-- What a semaphore is in the protocol. -/
inductive Role where
  | bar | send (i : Fin 3) | recv (i : Fin 3) | other
deriving DecidableEq

def roleOf (s : SemLoc sig) : Role :=
  if s = .reg barS then .bar
  else if s = .dma (sendS 0) then .send 0 else if s = .dma (sendS 1) then .send 1 else if s = .dma (sendS 2) then .send 2
  else if s = .dma (recvS 0) then .recv 0 else if s = .dma (recvS 1) then .recv 1 else if s = .dma (recvS 2) then .recv 2
  else .other

theorem role_bar : roleOf (.reg barS) = .bar := by decide
theorem role_send (i : Fin 3) : roleOf (.dma (sendS i)) = .send i := by revert i; decide
theorem role_recv (i : Fin 3) : roleOf (.dma (recvS i)) = .recv i := by revert i; decide

theorem eq_of_role_bar {s : SemLoc sig} (h : roleOf s = .bar) : s = .reg barS := by
  unfold roleOf at h; split_ifs at h <;> first | assumption | cases h
theorem eq_of_role_send {s : SemLoc sig} {i : Fin 3} (h : roleOf s = .send i) : s = .dma (sendS i) := by
  unfold roleOf at h; split_ifs at h <;> first | (cases h; assumption) | cases h
theorem eq_of_role_recv {s : SemLoc sig} {i : Fin 3} (h : roleOf s = .recv i) : s = .dma (recvS i) := by
  unfold roleOf at h; split_ifs at h <;> first | (cases h; assumption) | cases h

/-- The kernel's OWN (scoped) semaphores, as the launch indexes them: the three send, then the three receive. -/
abbrev osem : Fin 6 → SemLoc sig := fun
  | 0 => .dma (sendS 0) | 1 => .dma (sendS 1) | 2 => .dma (sendS 2) | 3 => .dma (recvS 0) | 4 => .dma (recvS 1) | 5 => .dma (recvS 2)
/-- All seven of the protocol's, as this proof indexes them: the barrier, the sends, the receives. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-- The index of a send or receive cell among the seven. -/
def kS (i : Fin 3) : Fin 7 := ⟨1 + i.val, by omega⟩
def kR (i : Fin 3) : Fin 7 := ⟨4 + i.val, by omega⟩
theorem kcell_send (c : Dev nD) (i : Fin 3) : kcell (c, kS i) = sendCell c i := by fin_cases i <;> rfl
theorem kcell_recv (c : Dev nD) (i : Fin 3) : kcell (c, kR i) = recvCell c i := by fin_cases i <;> rfl

/-- One row's transfer credit. -/
abbrev N : ℕ := (lM : Memref sig .tc .vmem S1x768 .f32).view.dmaCredit
theorem N_pos : 0 < N := View.dmaCredit_pos _ (by decide)

/-! ## Contents -/

/-- The device's block of the input as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The row of column maxima of device `c`'s block. -/
def lmax (c : Dev nD) : (cc0_scratch0 : Ref sig .tc).ty.Contents (Elt F) := k0_pay2 (xstg m ρ c)

/-- The first index of a row. -/
def idx0 : S1x768.Idx := fun a => ⟨0, by revert a; decide⟩

/-- The three-row buffer after the row `v` has landed in row `i` (the other rows hold nothing of interest: they are
    filled with the row's first entry, so that the contents are a function of `v` alone). -/
def landed (i : Fin 3) (v : (cc0_scratch0 : Ref sig .tc).ty.Contents (Elt F)) : (cc0_scratch1 : Ref sig .tc).ty.Contents (Elt F) :=
  (slotM i).view.write (Elt F) (fun _ => v idx0) v Finset.univ

/-- What a load of row `i` of the three-row buffer reads after `v` has landed there. -/
def recvd (i : Fin 3) (v : (cc0_scratch0 : Ref sig .tc).ty.Contents (Elt F)) : Vec F S1x1x768 .f32 :=
  (cM : Memref sig .tc .vmem S3x1x768 .f32).view.readAt (Elt F) (rectC i).toLoadRect (landed i v)

/-- The kernel's result on device `c`: the maximum of its own row and the three received, in the order received. -/
def outAt (c : Dev nD) : (cc0_stg1_0 : Ref sig .tc).ty.Contents (Elt F) :=
  k0_pay1 (k0_pay4 (k0_pay3 (lmax m ρ c) (recvd 0 (lmax m ρ (sh 3 c)))) (recvd 1 (lmax m ρ (sh 2 c)))) (recvd 2 (lmax m ρ (sh 1 c)))

/-! ## The points-to assertions the schedule speaks of -/

/-- A share `q` of the device's own row at contents `f`. -/
def lPts (c : Dev nD) (q : PosShare TreeShare) (f : (cc0_scratch0 : Ref sig .tc).ty.Contents (Elt F)) : sProp 𝕄 :=
  (lM : Memref sig .tc .vmem S1x768 .f32).view.loc (c : Thread nD τ) ↦[(lM : Memref sig .tc .vmem S1x768 .f32).view.set]{q} f
/-- Landing row `i` of device `c`, outright, the buffer at contents `f`. -/
def slotPts (c : Dev nD) (i : Fin 3) (f : (cc0_scratch1 : Ref sig .tc).ty.Contents (Elt F)) : sProp 𝕄 :=
  (slotM i).view.loc (c : Thread nD τ) ↦[(slotM i).view.set]{fullShare} f

instance lPts_storable (c : Dev nD) (q) (f) : BI.Storable (upEmb : UEmb _ 𝕄) (lPts (F := F) c q f) := by unfold lPts; infer_instance
instance slotPts_storable (c : Dev nD) (i) (f) : BI.Storable (upEmb : UEmb _ 𝕄) (slotPts (F := F) c i f) := by unfold slotPts; infer_instance

/-- The shares of the device's own row: one under each copy in flight, the last kept to read the row meanwhile. -/
def qs : Fin 3 → PosShare TreeShare := fun
  | 0 => fullShare.right.left | 1 => fullShare.left | 2 => fullShare.right.right.left
def qKeep : PosShare TreeShare := fullShare.right.right.right

/-! ## The schedule: one round -/

/-- Duty `d` of device `c`'s barrier cell is paid by the device `3 - d` places on (whose signal number `d + 1` names `c`);
    with it that device hands `c` the landing row `c` will write: its row `2 - d`. -/
def rowOf (d : Fin 3) : Fin 3 := ⟨2 - d.val, by omega⟩
def barPay (c : Dev nD) (d : Fin 3) : sProp 𝕄 := iprop(∃ f, slotPts (sh (3 - d.val) c) (rowOf d) f)
/-- Row `i` of `c` holds the row of maxima of the device `i + 1` places before `c`. -/
def recvPay (c : Dev nD) (i : Fin 3) : sProp 𝕄 := slotPts c i (landed i (lmax m ρ (sh (3 - i.val) c)))
/-- The share lent to copy `i` comes back. -/
def sendPay (c : Dev nD) (i : Fin 3) : sProp 𝕄 := lPts c (qs i) (lmax m ρ c)

def sched : Rounds.Schedule (GSem nD τ sig) (Fin 3) 𝕄 where
  duties g r := if r = 0 ∧ g.1.2 = .tc then (match roleOf g.2 with | .bar => Finset.univ | .send _ => {0} | .recv _ => {0} | .other => ∅) else ∅
  unitless _ := False
  amount g _ _ := match roleOf g.2 with | .bar => 1 | _ => N
  payload g _ d := match roleOf g.2 with
    | .bar => barPay g.1.1 d
    | .send i => sendPay m ρ g.1.1 i
    | .recv i => recvPay m ρ g.1.1 i
    | .other => iprop(emp)
  amount_pos g _ _ _ := by
    show 0 < (match roleOf g.2 with | .bar => 1 | _ => N)
    split
    · exact Nat.one_pos
    · exact N_pos

instance sched_payload_storable (g : GSem nD τ sig) (r : ℕ) (d : Fin 3) :
    BI.Storable (upEmb : UEmb _ 𝕄) ((sched (F := F) m ρ).payload g r d) := by
  show BI.Storable upEmb (match roleOf g.2 with
    | .bar => barPay g.1.1 d
    | .send i => sendPay m ρ g.1.1 i
    | .recv i => recvPay m ρ g.1.1 i
    | .other => iprop(emp))
  unfold barPay recvPay sendPay
  split <;> infer_instance

section Sched
variable (c : Dev nD) (i : Fin 3)

theorem duties_bar : (sched (F := F) m ρ).duties (barCell c) 0 = Finset.univ := by
  dsimp only [sched]
  refine (if_pos ⟨rfl, rfl⟩).trans ?_
  rw [role_bar]
theorem duties_send : (sched (F := F) m ρ).duties (sendCell c i) 0 = {0} := by
  dsimp only [sched]
  refine (if_pos ⟨rfl, rfl⟩).trans ?_
  rw [role_send]
theorem duties_recv : (sched (F := F) m ρ).duties (recvCell c i) 0 = {0} := by
  dsimp only [sched]
  refine (if_pos ⟨rfl, rfl⟩).trans ?_
  rw [role_recv]
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := by
  dsimp only [sched]
  rw [role_bar]
theorem amount_send (d : Fin 3) : (sched (F := F) m ρ).amount (sendCell c i) 0 d = N := by
  dsimp only [sched]
  rw [role_send]
theorem amount_recv (d : Fin 3) : (sched (F := F) m ρ).amount (recvCell c i) 0 d = N := by
  dsimp only [sched]
  rw [role_recv]

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c i) 0 = N := by
  unfold Schedule.expect Schedule.amountOf; rw [duties_send, Finset.sum_singleton, amount_send]
theorem expect_recv : (sched (F := F) m ρ).expect (recvCell c i) 0 = N := by
  unfold Schedule.expect Schedule.amountOf; rw [duties_recv, Finset.sum_singleton, amount_recv]

theorem payload_bar (d : Fin 3) : (sched (F := F) m ρ).payload (barCell c) 0 d = barPay c d := by
  dsimp only [sched]
  rw [role_bar]
theorem payload_send (d : Fin 3) : (sched (F := F) m ρ).payload (sendCell c i) 0 d = sendPay m ρ c i := by
  dsimp only [sched]
  rw [role_send]
theorem payload_recv (d : Fin 3) : (sched (F := F) m ρ).payload (recvCell c i) 0 d = recvPay m ρ c i := by
  dsimp only [sched]
  rw [role_recv]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three rows this device will write, one from each of the others. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send : bigSep ((sched (F := F) m ρ).duties (sendCell c i) 0 \ ∅) (fun d => (sched (F := F) m ρ).payload (sendCell c i) 0 d) = sendPay m ρ c i := by
  rw [Finset.sdiff_empty, duties_send, bigSep_singleton, payload_send]
theorem rest_recv : bigSep ((sched (F := F) m ρ).duties (recvCell c i) 0 \ ∅) (fun d => (sched (F := F) m ρ).payload (recvCell c i) 0 d) = recvPay m ρ c i := by
  rw [Finset.sdiff_empty, duties_recv, bigSep_singleton, payload_recv]

end Sched

/-! ## What a device owes at launch, in the order it pays; the levels -/

/-- Before the third copy (three places on, row 2), the second (one place on, row 0), the first (two places on, row 1);
    before the third signal, the second, the first. Each payment peels the last summand. -/
def O₅ (c : Dev nD) : CellTallies nD τ sig Unit := 0 + tallyAt (recvCell (sh 3 c) 2) () N
def O₄ (c : Dev nD) : CellTallies nD τ sig Unit := O₅ c + tallyAt (recvCell (sh 1 c) 0) () N
def O₃ (c : Dev nD) : CellTallies nD τ sig Unit := O₄ c + tallyAt (recvCell (sh 2 c) 1) () N
def O₂ (c : Dev nD) : CellTallies nD τ sig Unit := O₃ c + tallyAt (barCell (sh 3 c)) () 1
def O₁ (c : Dev nD) : CellTallies nD τ sig Unit := O₂ c + tallyAt (barCell (sh 2 c)) () 1
def O₀ (c : Dev nD) : CellTallies nD τ sig Unit := O₁ c + tallyAt (barCell (sh 1 c)) () 1

def L (g : GSem nD τ sig) : Finset Unit := if g.1.2 = .tc then {()} else ∅
/-- The barrier cells at 1, the receive cells at 2, everything else (staging, send) at 0. -/
def lv (g : GSem nD τ sig) (_ : Unit) : ℕ := match roleOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [role_bar]
theorem lv_recv (c : Dev nD) (i : Fin 3) : lv (recvCell c i) () = 2 := by
  dsimp only [lv]; rw [role_recv]
theorem lv_send (c : Dev nD) (i : Fin 3) : lv (sendCell c i) () = 0 := by
  dsimp only [lv]; rw [role_send]

theorem O₃_pos {c : Dev nD} {g : GSem nD τ sig} {u : Unit} (h : 0 < O₃ c g u) :
    g = recvCell (sh 3 c) 2 ∨ g = recvCell (sh 1 c) 0 ∨ g = recvCell (sh 2 c) 1 := by
  unfold O₃ O₄ O₅ at h
  simp only [Pi.add_apply, Finsupp.add_apply, tallyAt_apply, Pi.zero_apply, Finsupp.coe_zero, zero_add] at h
  by_contra hn
  rw [not_or, not_or] at hn
  have e1 : ¬ (g = recvCell (sh 3 c) 2 ∧ True) := fun h' => hn.1 h'.1
  have e2 : ¬ (g = recvCell (sh 1 c) 0 ∧ True) := fun h' => hn.2.1 h'.1
  have e3 : ¬ (g = recvCell (sh 2 c) 1 ∧ True) := fun h' => hn.2.2 h'.1
  rw [if_neg e1, if_neg e2, if_neg e3] at h
  exact Nat.lt_irrefl 0 h

theorem O₀_pos {c : Dev nD} {g : GSem nD τ sig} {u : Unit} (h : 0 < O₀ c g u) :
    (∃ d i, g = recvCell d i) ∨ (∃ d, g = barCell d) := by
  unfold O₀ O₁ O₂ at h
  simp only [Pi.add_apply, Finsupp.add_apply, tallyAt_apply] at h
  by_cases h3 : 0 < O₃ c g u
  · rcases O₃_pos h3 with rfl | rfl | rfl <;> exact Or.inl ⟨_, _, rfl⟩
  · by_contra hn
    rw [not_or] at hn
    have e3 : O₃ c g u = 0 := Nat.eq_zero_of_not_pos h3
    have f1 : ¬ (g = barCell (sh 3 c) ∧ True) := fun h' => hn.2 ⟨_, h'.1⟩
    have f2 : ¬ (g = barCell (sh 2 c) ∧ True) := fun h' => hn.2 ⟨_, h'.1⟩
    have f3 : ¬ (g = barCell (sh 1 c) ∧ True) := fun h' => hn.2 ⟨_, h'.1⟩
    rw [e3, if_neg f1, if_neg f2, if_neg f3] at h
    exact Nat.lt_irrefl 0 h

/-- A wait on a staging cell (level 0) is below everything a device ever owes (barrier and receive cells). -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, i, rfl⟩ | ⟨d, rfl⟩ <;> exact Finset.mem_singleton_self _)
      (fun p hp => by rw [Finset.mem_singleton.mp hp]; dsimp only [lv]; rw [hq])
      (fun g u hg => by
        rcases O₀_pos hg with ⟨d, i, rfl⟩ | ⟨d, rfl⟩
        · cases u; rw [lv_recv]; decide
        · cases u; rw [lv_bar]; decide)
  · rw [MayWait_zero]; iintro -; iempintro

/-- At its barrier wait (level 1) a device owes the three receive credits only (level 2). -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; exact le_of_eq (lv_bar c))
    (fun g u hg => by rcases O₃_pos hg with rfl | rfl | rfl <;> (cases u; rw [lv_recv]; decide))

end Cert.Kernel.Coll

end
-- ==== Proof.Kernel.Data.lean ====
/-
  What one device's thread starts from and what it must leave: the ghost state of the protocol (every cell's
  invariant, the device's positions in its own seven cells, the tokens of the nine duties it pays), the credit it is
  dealt at launch, its two scratch buffers; and the proof data the pipeline's launch asks for.
-/
import proofs.«900911_g7700000000000912_dist_max_ax0_shard0_i_m1536_n768_v7x_i4_bf16_1_alg».proof.Proof.Kernel.Proto

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

/-- Every cell's invariant, under the names the launch allocated them at, and that every cell is at round 0 or later. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) : records m ρ K ⊢ cellInv ER (sched m ρ) (K ck) (kcell ck) :=
  sep_elim_left.trans (bigSep_elim (Finset.mem_univ ck))
theorem reached_at (K : Dev nD × Fin 7 → ℕ) (ck : Dev nD × Fin 7) : records m ρ K ⊢ reached ER (kcell ck) 0 :=
  sep_elim_right.trans (bigSep_elim (Finset.mem_univ ck))

/-- The tokens of the nine duties device `c` pays: a unit on each other device's barrier cell (its signal number `d + 1`
    pays duty `d` of the device `d + 1` places on), the receive cell of each row it fills, its own three send cells. -/
def payToks (c : Dev nD) : sProp 𝕄 :=
  iprop((dutyTok ER (barCell (sh 1 c)) 0 (0 : Fin 3) ∗ dutyTok ER (barCell (sh 2 c)) 0 (1 : Fin 3) ∗ dutyTok ER (barCell (sh 3 c)) 0 (2 : Fin 3))
    ∗ (dutyTok ER (recvCell (sh 1 c) 0) 0 (0 : Fin 3) ∗ dutyTok ER (recvCell (sh 2 c) 1) 0 (0 : Fin 3) ∗ dutyTok ER (recvCell (sh 3 c) 2) 0 (0 : Fin 3))
    ∗ (dutyTok ER (sendCell c 0) 0 (0 : Fin 3) ∗ dutyTok ER (sendCell c 1) 0 (0 : Fin 3) ∗ dutyTok ER (sendCell c 2) 0 (0 : Fin 3)))

/-- The device's positions: at the start of round 0 of each of its seven cells. -/
def positions (c : Dev nD) : sProp 𝕄 := bigSep Finset.univ fun k : Fin 7 => atPos ER (kcell (c, k)) 0 ∅ 0

def ghost (K : Dev nD × Fin 7 → ℕ) (c : Dev nD) : sProp 𝕄 := iprop(records m ρ K ∗ positions c ∗ payToks c)

/-- The credit the others owe device `c`: three units on its barrier cell, a row's credit on each receive cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m ρ K c) ∗ creds c ∗ levAts L lv)

/-- The device's two scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scr c)
/-- After the point: the scratch buffers whole again, the six own cells at zero, closed (the barrier cell is the runtime's). -/
def Φ₁ (c : Dev nD) : sProp 𝕄 := iprop(scr c ∗ bigSep Finset.univ fun k : Fin 6 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from, at the cells' names `K`. -/
def bodyPre (K : Dev nD × Fin 7 → ℕ) (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves: its input block in place, the result row computed, nothing owed. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.Coll

end
-- ==== Proof.Kernel.Pieces.lean ====
/-
  The buffers of one device as the protocol cuts them: the three landing rows are the three rows of one buffer (they
  tile it, so the whole buffer is their separating conjunction), the device's own row is lent in four shares (one under
  each copy in flight, one kept to read it meanwhile); a landing leaves the row's contents and nothing else; a load of
  a landing row reads through the whole buffer's view what the row's own view holds.
-/
import proofs.«900911_g7700000000000912_dist_max_ax0_shard0_i_m1536_n768_v7x_i4_bf16_1_alg».proof.Proof.Kernel.Data
import Idealize.ShloMosaic.Lib.Pipeline.Value

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three landing rows tile their buffer -/

theorem slot_set (i : Fin 3) : (slotM i).view.set = (rectC i).set :=
  (Memref.set_view_squeeze (cM.slice (rectC i) (fun _ => rfl)) squeezes_S1x1x768_S1x768).trans (View.set_slice_whole cc0_scratch1 (rectC i))

/-- Row `i`'s elements, as a set of indices of the three-row buffer. -/
def slotSet (i : Fin 3) : Finset S3x1x768.Idx := (rectC i).set
theorem slot_set' (i : Fin 3) : (slotM i).view.set = slotSet i := slot_set i

theorem mem_rectC (i : Fin 3) (x : S3x1x768.Idx) : x ∈ (rectC i).set ↔ (x 0).val = i.val := by
  rw [Rect.mem_set_unit]
  have h1 : (x 1).val < 1 := (x 1).isLt
  have h2 : (x 2).val < 768 := (x 2).isLt
  constructor
  · intro h
    have h0 : i.val ≤ (x 0).val ∧ (x 0).val < i.val + 1 := h 0
    omega
  · intro h a
    match a with
    | ⟨0, _⟩ =>
      show i.val ≤ (x 0).val ∧ (x 0).val < i.val + 1
      omega
    | ⟨1, _⟩ =>
      show 0 ≤ (x 1).val ∧ (x 1).val < 0 + 1
      omega
    | ⟨2, _⟩ =>
      show 0 ≤ (x 2).val ∧ (x 2).val < 0 + 768
      omega

theorem mem_slotSet (i : Fin 3) (x : S3x1x768.Idx) : x ∈ slotSet i ↔ (x 0).val = i.val := mem_rectC i x

theorem slotSet_disjoint (i j : Fin 3) (h : i ≠ j) : Disjoint (slotSet i) (slotSet j) := by
  rw [Finset.disjoint_left]
  intro x hi hj
  rw [mem_slotSet] at hi hj
  exact h (Fin.ext (hi.symm.trans hj))

theorem slotSet_cover : (Finset.univ : Finset (Fin 3)).biUnion slotSet = Finset.univ := by
  ext x
  simp only [Finset.mem_biUnion, Finset.mem_univ, true_and, iff_true]
  exact ⟨⟨(x 0).val, (x 0).isLt⟩, (mem_slotSet _ x).mpr rfl⟩

theorem slotPts_eq (c : Dev nD) (i : Fin 3) (f : (cc0_scratch1 : Ref sig .tc).ty.Contents (Elt F)) :
    slotPts c i f = ((((c : Thread nD τ).loc cc0_scratch1) ↦[slotSet i]{fullShare} f) : sProp 𝕄) := by
  unfold slotPts
  exact congrArg (fun I : Finset S3x1x768.Idx => ((((c : Thread nD τ).loc cc0_scratch1) ↦[I]{fullShare} f) : sProp 𝕄)) (slot_set' i)

/-- The rows' sets as element sets of the device's buffer, and that together they are all of it. -/
theorem pts_cover (c : Dev nD) (f : Buf (Elt F) ((c : Thread nD τ).loc cc0_scratch1)) :
    ((((c : Thread nD τ).loc cc0_scratch1) ↦[(Finset.univ : Finset (Fin 3)).biUnion slotSet]{fullShare} f) : sProp 𝕄)
      = ((((c : Thread nD τ).loc cc0_scratch1) ↦{fullShare} f) : sProp 𝕄) :=
  congrArg (fun I : Finset S3x1x768.Idx => ((((c : Thread nD τ).loc cc0_scratch1) ↦[I]{fullShare} f) : sProp 𝕄)) slotSet_cover

/-- The three-row buffer, whole, is its three rows. -/
theorem comm_split (c : Dev nD) (f : Buf (Elt F) ((c : Thread nD τ).loc cc0_scratch1)) :
    ((((c : Thread nD τ).loc cc0_scratch1) ↦{fullShare} f) : sProp 𝕄) = iprop(slotPts c 0 f ∗ slotPts c 1 f ∗ slotPts c 2 f) := by
  have h : ((((c : Thread nD τ).loc cc0_scratch1) ↦[(Finset.univ : Finset (Fin 3)).biUnion slotSet]{fullShare} f) : sProp 𝕄)
      = bigSep (Finset.univ : Finset (Fin 3)) (fun i => (((c : Thread nD τ).loc cc0_scratch1) ↦[slotSet i]{fullShare} f)) :=
    pointsTo_biUnion (ℓ := (c : Thread nD τ).loc cc0_scratch1) (q := fullShare) (f := f) Finset.univ slotSet (fun i _ j _ hij => slotSet_disjoint i j hij)
  have h3 : bigSep (Finset.univ : Finset (Fin 3)) (fun i => ((((c : Thread nD τ).loc cc0_scratch1) ↦[slotSet i]{fullShare} f) : sProp 𝕄))
      = iprop(slotPts c 0 f ∗ slotPts c 1 f ∗ slotPts c 2 f) := by
    rw [slotPts_eq, slotPts_eq, slotPts_eq]
    exact bigSep_fin3 (F := F) _
  exact (pts_cover c f).symm.trans (h.trans h3)

/-- Three rows at three contents are the buffer whole at some contents. -/
theorem comm_join (c : Dev nD) (f0 f1 f2 : Buf (Elt F) ((c : Thread nD τ).loc cc0_scratch1)) :
    iprop(slotPts c 0 f0 ∗ slotPts c 1 f1 ∗ slotPts c 2 f2)
      ⊢ (iprop(∃ f : Buf (Elt F) ((c : Thread nD τ).loc cc0_scratch1), ((c : Thread nD τ).loc cc0_scratch1) ↦{fullShare} f) : sProp 𝕄) := by
  let fs : Fin 3 → Buf (Elt F) ((c : Thread nD τ).loc cc0_scratch1) := fun i => if i = 0 then f0 else if i = 1 then f1 else f2
  have h : bigSep (Finset.univ : Finset (Fin 3)) (fun i => ((((c : Thread nD τ).loc cc0_scratch1) ↦[slotSet i]{fullShare} fs i) : sProp 𝕄))
      ⊢ (iprop(∃ g, ⌜∀ t ∈ (Finset.univ : Finset (Fin 3)), ∀ i ∈ slotSet t, g i = fs t i⌝
          ∗ ((c : Thread nD τ).loc cc0_scratch1) ↦[(Finset.univ : Finset (Fin 3)).biUnion slotSet]{fullShare} g) : sProp 𝕄) :=
    pointsTo_biUnion_join (ℓ := (c : Thread nD τ).loc cc0_scratch1) (q := fullShare) Finset.univ slotSet fs f0 (fun i _ j _ hij => slotSet_disjoint i j hij)
  have h3 : iprop(slotPts c 0 f0 ∗ slotPts c 1 f1 ∗ slotPts c 2 f2)
      = bigSep (Finset.univ : Finset (Fin 3)) (fun i => ((((c : Thread nD τ).loc cc0_scratch1) ↦[slotSet i]{fullShare} fs i) : sProp 𝕄)) := by
    rw [slotPts_eq, slotPts_eq, slotPts_eq]
    exact (bigSep_fin3 (F := F) (fun i => ((((c : Thread nD τ).loc cc0_scratch1) ↦[slotSet i]{fullShare} fs i) : sProp 𝕄))).symm
  iintro H
  ihave H' := ((Entails.of_eq h3).trans h) $$ H
  icases H' with ⟨%g, -, Hg⟩
  iexists g
  iapply (Entails.of_eq (pts_cover c g))
  iexact Hg

/-! ## The device's own row in four shares -/

theorem lPts_eq (c : Dev nD) (q : PosShare TreeShare) (f : (cc0_scratch0 : Ref sig .tc).ty.Contents (Elt F)) :
    lPts c q f = (((c : Thread nD τ).loc cc0_scratch0) ↦{q} f : sProp 𝕄) := by unfold lPts; rw [View.set_whole]

theorem l_shares (c : Dev nD) (f : (cc0_scratch0 : Ref sig .tc).ty.Contents (Elt F)) :
    ((((c : Thread nD τ).loc cc0_scratch0) ↦{fullShare} f) : sProp 𝕄)
      ⊣⊢ iprop(lPts c (qs 1) f ∗ lPts c (qs 0) f ∗ lPts c (qs 2) f ∗ lPts c qKeep f) := by
  rw [lPts_eq, lPts_eq, lPts_eq, lPts_eq]
  have h1 : ((((c : Thread nD τ).loc cc0_scratch0) ↦{fullShare} f) : sProp 𝕄)
      ⊣⊢ iprop((((c : Thread nD τ).loc cc0_scratch0) ↦{fullShare.left} f) ∗ (((c : Thread nD τ).loc cc0_scratch0) ↦{fullShare.right} f)) :=
    pointsTo_share (PosShare.mem_left_op_right fullShare)
  have h2 : ((((c : Thread nD τ).loc cc0_scratch0) ↦{fullShare.right} f) : sProp 𝕄)
      ⊣⊢ iprop((((c : Thread nD τ).loc cc0_scratch0) ↦{fullShare.right.left} f) ∗ (((c : Thread nD τ).loc cc0_scratch0) ↦{fullShare.right.right} f)) :=
    pointsTo_share (PosShare.mem_left_op_right fullShare.right)
  have h3 : ((((c : Thread nD τ).loc cc0_scratch0) ↦{fullShare.right.right} f) : sProp 𝕄)
      ⊣⊢ iprop((((c : Thread nD τ).loc cc0_scratch0) ↦{fullShare.right.right.left} f) ∗ (((c : Thread nD τ).loc cc0_scratch0) ↦{fullShare.right.right.right} f)) :=
    pointsTo_share (PosShare.mem_left_op_right fullShare.right.right)
  constructor
  · iintro H
    ihave H1 := h1.1 $$ H
    icases H1 with ⟨HA, HR⟩
    ihave H2 := h2.1 $$ HR
    icases H2 with ⟨HB, HRR⟩
    ihave H3 := h3.1 $$ HRR
    icases H3 with ⟨HC, HD⟩
    isplitl [HA]; · iexact HA
    isplitl [HB]; · iexact HB
    isplitl [HC]; · iexact HC
    iexact HD
  · iintro ⟨HA, HB, HC, HD⟩
    iapply h1.2
    isplitl [HA]; · iexact HA
    iapply h2.2
    isplitl [HB]; · iexact HB
    iapply h3.2
    isplitl [HC]; · iexact HC
    iexact HD

/-! ## Whole-row loads and stores -/

abbrev r0 : Rect S1x768 := Rect.unit (s := S1x768) ![0, 0] S1x768.size inb_S1x768_S1x768_0_0
abbrev rX : Rect S1536x768 := Rect.unit (s := S1536x768) ![0, 0] S1536x768.size inb_S1536x768_S1536x768_0_0

theorem hz : (![0, 0] : Fin 2 → Nat) = fun _ => 0 := funext fun a => by fin_cases a <;> rfl
theorem read_x (f : (cc0_stg0_0 : Ref sig .tc).ty.Contents (Elt F)) : (xM : Memref sig .tc .vmem S1536x768 .f32).view.readAt (Elt F) rX.toLoadRect f = f :=
  Memref.readAt_unit_zero (Elt F) cc0_stg0_0 hz _ f
theorem read_l (f : (cc0_scratch0 : Ref sig .tc).ty.Contents (Elt F)) : (lM : Memref sig .tc .vmem S1x768 .f32).view.readAt (Elt F) r0.toLoadRect f = f :=
  Memref.readAt_unit_zero (Elt F) cc0_scratch0 hz _ f
theorem write_l (f w : (cc0_scratch0 : Ref sig .tc).ty.Contents (Elt F)) :
    ((lM : Memref sig .tc .vmem S1x768 .f32).access r0 : View sig .tc _ _ _).write (Elt F) f w Finset.univ = w :=
  Memref.write_access_unit_zero_univ (Elt F) cc0_scratch0 hz _ f w
theorem write_o (f w : (cc0_stg1_0 : Ref sig .tc).ty.Contents (Elt F)) :
    ((oM : Memref sig .tc .vmem S1x768 .f32).access r0 : View sig .tc _ _ _).write (Elt F) f w Finset.univ = w :=
  Memref.write_access_unit_zero_univ (Elt F) cc0_stg1_0 hz _ f w

/-! ## A landing -/

/-- On the row's own elements, the buffer after a landing is the landed row whatever it held before. -/
theorem landed_congr (i : Fin 3) (fd : (cc0_scratch1 : Ref sig .tc).ty.Contents (Elt F)) (v : (cc0_scratch0 : Ref sig .tc).ty.Contents (Elt F)) :
    ∀ j ∈ (slotM i).view.set, (slotM i).view.write (Elt F) fd v Finset.univ j = landed i v j := by
  intro j hj
  obtain ⟨y, rfl⟩ := View.exists_emb_of_mem_set _ hj
  unfold landed
  rw [View.write_emb_of_mem _ _ (Finset.mem_univ y), View.write_emb_of_mem _ _ (Finset.mem_univ y)]

/-- A load of row `i` through the three-row buffer touches the row's elements only. -/
theorem load_slot_sub (i : Fin 3) :
    (cM : Memref sig .tc .vmem S3x1x768 .f32).view.setOn (rectC i).toLoadRect.set ⊆ (slotM i).view.set := by
  rw [slot_set]
  intro x hx
  obtain ⟨y, hy, rfl⟩ := Finset.mem_map.mp hx
  exact hy

end Cert.Kernel.Coll

end
-- ==== Proof.Kernel.Body.lean ====
/-
  One device's thread, step by step. It pays a unit to each other device's barrier cell, handing each the landing row
  that device will fill; reduces its block to its row of column maxima; takes the three units of its own barrier cell,
  and with them the three rows it will fill; starts the three copies of its row, each under its own share of the row;
  reads its row through the share it kept; takes each landing in turn and with it the sender's row, folding the maximum;
  stores the result; takes the three shares back; and leaves its buffers whole and its six own cells at zero.
-/
import proofs.«900911_g7700000000000912_dist_max_ax0_shard0_i_m1536_n768_v7x_i4_bf16_1_alg».proof.Proof.Kernel.Pieces

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The landing row a device hands over with its signal number `j + 1`: its row `2 - j`. -/
theorem barPay_give (c : Dev nD) (j : Fin 3) (f : (cc0_scratch1 : Ref sig .tc).ty.Contents (Elt F)) :
    slotPts c (rowOf j) f ⊢ (sched (F := F) m ρ).payload (barCell (sh (j.val + 1) c)) 0 j := by
  rw [payload_bar]; unfold barPay; rw [sh_forth]
  iintro H; iexists f; iexact H

theorem barPay_give1 (c : Dev nD) (f : (cc0_scratch1 : Ref sig .tc).ty.Contents (Elt F)) :
    slotPts c 2 f ⊢ (sched (F := F) m ρ).payload (barCell (sh 1 c)) 0 0 := barPay_give m ρ c 0 f
theorem barPay_give2 (c : Dev nD) (f : (cc0_scratch1 : Ref sig .tc).ty.Contents (Elt F)) :
    slotPts c 1 f ⊢ (sched (F := F) m ρ).payload (barCell (sh 2 c)) 0 1 := barPay_give m ρ c 1 f
theorem barPay_give3 (c : Dev nD) (f : (cc0_scratch1 : Ref sig .tc).ty.Contents (Elt F)) :
    slotPts c 0 f ⊢ (sched (F := F) m ρ).payload (barCell (sh 3 c)) 0 2 := barPay_give m ρ c 2 f

theorem slot_credit (i : Fin 3) : (slotM i : Memref sig .tc .vmem S1x768 .f32).view.dmaCredit = N := by revert i; decide

section Body

variable (K : Dev nD × Fin 7 → ℕ)

/-- The copy of the device's row into row `i` of the device `i + 1` places on (named `n` as the kernel computes it): it pays
    duty 0 of the sender's send cell `i` (the share lent comes back with it) and duty 0 of the receiver's receive cell `i`
    (the row landed). -/
theorem wp_send_row (c n : Dev nD) (i : Fin 3) (hn : n = sh (i.val + 1) c)
    {hsc : (slotM i : Memref sig (Dev.tc n : Thread nD τ).2.kind .vmem S1x768 .f32).view.ref.isScScratch = false}
    {hsrc : (lM : Memref sig .tc .vmem S1x768 .f32).view.WordExact} {hdst : (slotM i : Memref sig .tc .vmem S1x768 .f32).view.WordExact}
    {hsem : DmaTarget.Typed .vmem (.dma (recvS i)) (.remote (Dev.tc n : Thread nD τ) (slotM i : Memref sig .tc .vmem S1x768 .f32) (.dma (sendS i)) hsc)}
    {α : Type} {Q : α → sProp 𝕄} {k : PUnit → Prog (TpuEff nD τ sig (Elt F) Λ₀ .tc) α}
    (fn : (cc0_scratch1 : Ref sig .tc).ty.Contents (Elt F)) (W : Waits sig Unit) (O : CellTallies nD τ sig Unit) :
    iprop(cellInv ER (sched m ρ) (K (c, kS i)) (sendCell c i) ∗ cellInv ER (sched m ρ) (K (sh (i.val + 1) c, kR i)) (recvCell (sh (i.val + 1) c) i)
        ∗ lPts c (qs i) (lmax m ρ c) ∗ slotPts (sh (i.val + 1) c) i fn
        ∗ owes (c : Thread nD τ) (O + tallyAt (recvCell (sh (i.val + 1) c) i) () N) W
        ∗ dutyTok ER (sendCell c i) 0 (0 : Fin 3) ∗ reached ER (sendCell c i) 0
        ∗ dutyTok ER (recvCell (sh (i.val + 1) c) i) 0 (0 : Fin 3) ∗ reached ER (recvCell (sh (i.val + 1) c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc n : Thread nD τ) (slotM i) (.dma (sendS i)) hsc) (.dma (recvS i)) hsrc hdst hsem) k) Q) := by
  subst hn
  unfold lPts slotPts
  exact Rounds.wp_send_pointsTo 𝒱₀ ER (sched m ρ) (c : Thread nD τ) none (κ₁ := K (c, kS i)) (κ₂ := K (sh (i.val + 1) c, kR i))
    (src := lM) (dst := slotM i) (c' := (Dev.tc (sh (i.val + 1) c) : Thread nD τ)) (q := qs i) (fs := lmax m ρ c)
    (r₁ := 0) (r₂ := 0) (d₁ := (0 : Fin 3)) (d₂ := (0 : Fin 3)) (fd := fn)
    (by rw [duties_send]; exact Finset.mem_singleton_self _) (by rw [duties_recv]; exact Finset.mem_singleton_self _)
    () () N (by fin_cases i <;> rfl) (amount_send m ρ c i 0) (amount_recv m ρ (sh (i.val + 1) c) i 0) O rfl (W := W)
    (by rw [payload_send]; unfold sendPay lPts; exact BI.Entails.refl _)
    (by
      rw [payload_recv]; unfold recvPay slotPts; rw [sh_forth]
      refine Entails.of_eq (pointsTo_congr fun j hj => ?_)
      rw [show (lM : Memref sig .tc .vmem S1x768 .f32).view.read (Elt F) (lmax m ρ c) = lmax m ρ c from View.read_whole _ _]
      exact landed_congr i fn (lmax m ρ c) j hj)

set_option maxHeartbeats 3200000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost positions payToks creds scr
  rw [bigSep_fin7]
  iintro ⟨⟨⟨⟨#HR, ⟨HatB, HatS0, HatS1, HatS2, HatR0, HatR1, HatR2⟩, ⟨HtB1, HtB2, HtB3⟩, ⟨HtR1, HtR2, HtR3⟩, ⟨HtS0, HtS1, HtS2⟩⟩,
      ⟨HcB, HcR0, HcR1, HcR2⟩, #Hlev, ⟨%fl, Hl⟩, ⟨%fc, Hc⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the invariants and reached-marks this thread opens
  ihave #HIB := (inv_at m ρ K (c, 0)) $$ HR
  ihave #HIS0 := (inv_at m ρ K (c, 1)) $$ HR
  ihave #HIS1 := (inv_at m ρ K (c, 2)) $$ HR
  ihave #HIS2 := (inv_at m ρ K (c, 3)) $$ HR
  ihave #HIR0 := (inv_at m ρ K (c, 4)) $$ HR
  ihave #HIR1 := (inv_at m ρ K (c, 5)) $$ HR
  ihave #HIR2 := (inv_at m ρ K (c, 6)) $$ HR
  ihave #HIB1 := (inv_at m ρ K (sh 1 c, 0)) $$ HR
  ihave #HIB2 := (inv_at m ρ K (sh 2 c, 0)) $$ HR
  ihave #HIB3 := (inv_at m ρ K (sh 3 c, 0)) $$ HR
  ihave #HIV1 := (inv_at m ρ K (sh 1 c, 4)) $$ HR
  ihave #HIV2 := (inv_at m ρ K (sh 2 c, 5)) $$ HR
  ihave #HIV3 := (inv_at m ρ K (sh 3 c, 6)) $$ HR
  ihave #HrB1 := (reached_at m ρ K (sh 1 c, 0)) $$ HR
  ihave #HrB2 := (reached_at m ρ K (sh 2 c, 0)) $$ HR
  ihave #HrB3 := (reached_at m ρ K (sh 3 c, 0)) $$ HR
  ihave #HrV1 := (reached_at m ρ K (sh 1 c, 4)) $$ HR
  ihave #HrV2 := (reached_at m ρ K (sh 2 c, 5)) $$ HR
  ihave #HrV3 := (reached_at m ρ K (sh 3 c, 6)) $$ HR
  ihave #HrS0 := (reached_at m ρ K (c, 1)) $$ HR
  ihave #HrS1 := (reached_at m ρ K (c, 2)) $$ HR
  ihave #HrS2 := (reached_at m ρ K (c, 3)) $$ HR
  -- the three landing rows, apart
  ihave Hc3 := (Entails.of_eq (comm_split c fc)) $$ Hc
  icases Hc3 with ⟨Hrow0, Hrow1, Hrow2⟩
  simp only [dev1_eq c, dev2_eq c, dev3_eq c]
  -- the first signal, one place on: duty 0 of that barrier cell, with row 2
  iapply (Rounds.wp_signal 𝒱₀ ER (sched m ρ) (c : Thread nD τ) none (dst := (sh 1 c : Thread nD τ)) (κ := K (sh 1 c, 0))
      (d := (0 : Fin 3)) (by rw [duties_bar]; exact Finset.mem_univ _) ((amount_bar m ρ (sh 1 c) 0).trans (by decide)) () (O₁ c) rfl)
    $$ [HO HtB1 Hrow2]
  · isplitr; · iexact HIB1
    isplitl [HO]; · iexact HO
    isplitl [HtB1]; · iexact HtB1
    isplitl [Hrow2]; · iapply (barPay_give1 m ρ c fc); iexact Hrow2
    iexact HrB1
  iintro HO
  -- the second, two places on: duty 1, with row 1
  iapply (Rounds.wp_signal 𝒱₀ ER (sched m ρ) (c : Thread nD τ) none (dst := (sh 2 c : Thread nD τ)) (κ := K (sh 2 c, 0))
      (d := (1 : Fin 3)) (by rw [duties_bar]; exact Finset.mem_univ _) ((amount_bar m ρ (sh 2 c) 1).trans (by decide)) () (O₂ c) rfl)
    $$ [HO HtB2 Hrow1]
  · isplitr; · iexact HIB2
    isplitl [HO]; · iexact HO
    isplitl [HtB2]; · iexact HtB2
    isplitl [Hrow1]; · iapply (barPay_give2 m ρ c fc); iexact Hrow1
    iexact HrB2
  iintro HO
  -- the third, three places on: duty 2, with row 0
  iapply (Rounds.wp_signal 𝒱₀ ER (sched m ρ) (c : Thread nD τ) none (dst := (sh 3 c : Thread nD τ)) (κ := K (sh 3 c, 0))
      (d := (2 : Fin 3)) (by rw [duties_bar]; exact Finset.mem_univ _) ((amount_bar m ρ (sh 3 c) 2).trans (by decide)) () (O₃ c) rfl)
    $$ [HO HtB3 Hrow0]
  · isplitr; · iexact HIB3
    isplitl [HO]; · iexact HO
    isplitl [HtB3]; · iexact HtB3
    isplitl [Hrow0]; · iapply (barPay_give3 m ρ c fc); iexact Hrow0
    iexact HrB3
  iintro HO
  -- the block's row of column maxima into the device's own row
  iapply (wp_load 𝒱₀ (c : Thread nD τ) none Set.univ (m := xM) (Finset.subset_univ _)) $$ Hx; iintro Hx
  rw [read_x]
  iapply (wp_load 𝒱₀ (c : Thread nD τ) none Set.univ (m := lM) (Finset.subset_univ _)) $$ Hl; iintro Hl
  iapply (wp_store 𝒱₀ (c : Thread nD τ) none Set.univ (m := lM) (r := r0) (Mk := Finset.univ) (Finset.subset_univ _)) $$ Hl; iintro Hl
  rw [write_l, show k0_pay2 (xstg m ρ c) = lmax m ρ c from rfl]
  -- the wait for 3 on its own barrier cell, owing the three receive credits: the three rows it will fill come with it
  iapply (Rounds.wp_wait_rest_token 𝒱₀ ER (sched m ρ) (c : Thread nD τ) none (κ := K (c, 0))
      (wpE_semWait_eq 𝒱₀ (c : Thread nD τ) none Set.univ) (Set.mem_univ _) () (O := O₃ c) (W := W) (R := 0) (m := 0) (T := ∅)
      (by rw [expect_bar m ρ c]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn3, Hdst3⟩, ⟨%fn2, Hdst2⟩, ⟨%fn1, Hdst1⟩⟩
  -- the device's row in four shares
  ihave Hl4 := (l_shares c (lmax m ρ c)).1 $$ Hl
  icases Hl4 with ⟨HlA, HlB, HlC, HlD⟩
  -- the copy two places on, into row 1
  unfold O₃
  iapply (wp_send_row m ρ K c _ 1 (dev4_eq c) fn2 (insert (SemLoc.reg barS, ()) W) (O₄ c)) $$ [HlA Hdst2 HO HtS1 HtR2]
  · isplitr; · iexact HIS1
    isplitr; · iexact HIV2
    isplitl [HlA]; · iexact HlA
    isplitl [Hdst2]; · iexact Hdst2
    isplitl [HO]; · iexact HO
    isplitl [HtS1]; · iexact HtS1
    isplitr; · iexact HrS1
    isplitl [HtR2]; · iexact HtR2
    iexact HrV2
  iintro ⟨HcS1, HO⟩
  -- one place on, into row 0
  unfold O₄
  iapply (wp_send_row m ρ K c _ 0 (dev5_eq c) fn1 (insert (SemLoc.reg barS, ()) W) (O₅ c)) $$ [HlB Hdst1 HO HtS0 HtR1]
  · isplitr; · iexact HIS0
    isplitr; · iexact HIV1
    isplitl [HlB]; · iexact HlB
    isplitl [Hdst1]; · iexact Hdst1
    isplitl [HO]; · iexact HO
    isplitl [HtS0]; · iexact HtS0
    isplitr; · iexact HrS0
    isplitl [HtR1]; · iexact HtR1
    iexact HrV1
  iintro ⟨HcS0, HO⟩
  -- three places on, into row 2
  unfold O₅
  iapply (wp_send_row m ρ K c _ 2 (dev6_eq c) fn3 (insert (SemLoc.reg barS, ()) W) 0) $$ [HlC Hdst3 HO HtS2 HtR3]
  · isplitr; · iexact HIS2
    isplitr; · iexact HIV3
    isplitl [HlC]; · iexact HlC
    isplitl [Hdst3]; · iexact Hdst3
    isplitl [HO]; · iexact HO
    isplitl [HtS2]; · iexact HtS2
    isplitr; · iexact HrS2
    isplitl [HtR3]; · iexact HtR3
    iexact HrV3
  iintro ⟨HcS2, HO⟩
  -- the device's own row, read through the share kept
  unfold lPts
  iapply (wp_load 𝒱₀ (c : Thread nD τ) none Set.univ (m := lM) (View.setOn_subset_set _ _)) $$ HlD; iintro HlD
  rw [read_l]
  -- row 0 lands: the row of the device three places on
  iapply (Rounds.wp_wait_rest_token 𝒱₀ ER (sched m ρ) (c : Thread nD τ) none (κ := K (c, 4)) (sm := SemLoc.dma (recvS 0))
      (wpE_waitDma2_eq 𝒱₀ (c : Thread nD τ) none Set.univ) (Set.mem_univ _) () (O := 0) (W := insert (SemLoc.reg barS, ()) W) (R := 0) (m := 0) (T := ∅)
      (by rw [Nat.zero_add, expect_recv m ρ c 0])) $$ [HcR0 HO HatR0]
  · isplitr; · iexact HIR0
    isplitl [HcR0]; · iexact HcR0
    isplitl [HO]; · iexact HO
    isplitr; · rw [MayWait_zero]; iempintro
    iexact HatR0
  iintro ⟨HO, HatR0, -, Hpay⟩
  ihave Hrow0 := (Entails.of_eq (rest_recv m ρ c 0)) $$ Hpay
  unfold recvPay slotPts
  iapply (wp_load 𝒱₀ (c : Thread nD τ) none Set.univ (m := cM) (load_slot_sub 0)) $$ Hrow0; iintro Hrow0
  -- row 1: two places on
  iapply (Rounds.wp_wait_rest_token 𝒱₀ ER (sched m ρ) (c : Thread nD τ) none (κ := K (c, 5)) (sm := SemLoc.dma (recvS 1))
      (wpE_waitDma2_eq 𝒱₀ (c : Thread nD τ) none Set.univ) (Set.mem_univ _) () (O := 0)
      (W := insert (SemLoc.dma (recvS 0), ()) (insert (SemLoc.reg barS, ()) W)) (R := 0) (m := 0) (T := ∅)
      (by rw [Nat.zero_add, expect_recv m ρ c 1])) $$ [HcR1 HO HatR1]
  · isplitr; · iexact HIR1
    isplitl [HcR1]; · iexact HcR1
    isplitl [HO]; · iexact HO
    isplitr; · rw [MayWait_zero]; iempintro
    iexact HatR1
  iintro ⟨HO, HatR1, -, Hpay⟩
  ihave Hrow1 := (Entails.of_eq (rest_recv m ρ c 1)) $$ Hpay
  unfold recvPay slotPts
  iapply (wp_load 𝒱₀ (c : Thread nD τ) none Set.univ (m := cM) (load_slot_sub 1)) $$ Hrow1; iintro Hrow1
  -- row 2: one place on
  iapply (Rounds.wp_wait_rest_token 𝒱₀ ER (sched m ρ) (c : Thread nD τ) none (κ := K (c, 6)) (sm := SemLoc.dma (recvS 2))
      (wpE_waitDma2_eq 𝒱₀ (c : Thread nD τ) none Set.univ) (Set.mem_univ _) () (O := 0)
      (W := insert (SemLoc.dma (recvS 1), ()) (insert (SemLoc.dma (recvS 0), ()) (insert (SemLoc.reg barS, ()) W))) (R := 0) (m := 0) (T := ∅)
      (by rw [Nat.zero_add, expect_recv m ρ c 2])) $$ [HcR2 HO HatR2]
  · isplitr; · iexact HIR2
    isplitl [HcR2]; · iexact HcR2
    isplitl [HO]; · iexact HO
    isplitr; · rw [MayWait_zero]; iempintro
    iexact HatR2
  iintro ⟨HO, HatR2, -, Hpay⟩
  ihave Hrow2 := (Entails.of_eq (rest_recv m ρ c 2)) $$ Hpay
  unfold recvPay slotPts
  iapply (wp_load 𝒱₀ (c : Thread nD τ) none Set.univ (m := cM) (load_slot_sub 2)) $$ Hrow2; iintro Hrow2
  -- the result row
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]

  -- the three shares come back: the copies have read the row
  iapply (Rounds.wp_wait_rest_token 𝒱₀ ER (sched m ρ) (c : Thread nD τ) none (κ := K (c, 2)) (sm := SemLoc.dma (sendS 1))
      (wpE_waitDma2_eq 𝒱₀ (c : Thread nD τ) none Set.univ) (Set.mem_univ _) () (O := 0)
      (W := insert (SemLoc.dma (recvS 2), ()) (insert (SemLoc.dma (recvS 1), ()) (insert (SemLoc.dma (recvS 0), ()) (insert (SemLoc.reg barS, ()) W))))
      (R := 0) (m := 0) (T := ∅) (by rw [Nat.zero_add, expect_send m ρ c 1])) $$ [HcS1 HO HatS1]
  · isplitr; · iexact HIS1
    isplitl [HcS1]; · iexact HcS1
    isplitl [HO]; · iexact HO
    isplitr; · rw [MayWait_zero]; iempintro
    iexact HatS1
  iintro ⟨HO, HatS1, -, Hpay⟩
  ihave HlA := (Entails.of_eq (rest_send m ρ c 1)) $$ Hpay
  iapply (Rounds.wp_wait_rest_token 𝒱₀ ER (sched m ρ) (c : Thread nD τ) none (κ := K (c, 1)) (sm := SemLoc.dma (sendS 0))
      (wpE_waitDma2_eq 𝒱₀ (c : Thread nD τ) none Set.univ) (Set.mem_univ _) () (O := 0)
      (W := insert (SemLoc.dma (sendS 1), ()) (insert (SemLoc.dma (recvS 2), ()) (insert (SemLoc.dma (recvS 1), ()) (insert (SemLoc.dma (recvS 0), ()) (insert (SemLoc.reg barS, ()) W)))))
      (R := 0) (m := 0) (T := ∅) (by rw [Nat.zero_add, expect_send m ρ c 0])) $$ [HcS0 HO HatS0]
  · isplitr; · iexact HIS0
    isplitl [HcS0]; · iexact HcS0
    isplitl [HO]; · iexact HO
    isplitr; · rw [MayWait_zero]; iempintro
    iexact HatS0
  iintro ⟨HO, HatS0, -, Hpay⟩
  ihave HlB := (Entails.of_eq (rest_send m ρ c 0)) $$ Hpay
  iapply (Rounds.wp_wait_rest_token 𝒱₀ ER (sched m ρ) (c : Thread nD τ) none (κ := K (c, 3)) (sm := SemLoc.dma (sendS 2))
      (wpE_waitDma2_eq 𝒱₀ (c : Thread nD τ) none Set.univ) (Set.mem_univ _) () (O := 0)
      (W := insert (SemLoc.dma (sendS 0), ()) (insert (SemLoc.dma (sendS 1), ()) (insert (SemLoc.dma (recvS 2), ()) (insert (SemLoc.dma (recvS 1), ()) (insert (SemLoc.dma (recvS 0), ()) (insert (SemLoc.reg barS, ()) W))))))
      (R := 0) (m := 0) (T := ∅) (by rw [Nat.zero_add, expect_send m ρ c 2])) $$ [HcS2 HO HatS2]
  · isplitr; · iexact HIS2
    isplitl [HcS2]; · iexact HcS2
    isplitl [HO]; · iexact HO
    isplitr; · rw [MayWait_zero]; iempintro
    iexact HatS2
  iintro ⟨HO, HatS2, -, Hpay⟩
  ihave HlC := (Entails.of_eq (rest_send m ρ c 2)) $$ Hpay
  unfold sendPay
  -- the row whole again, the three landing rows one buffer again
  ihave Hl := (l_shares c (lmax m ρ c)).2 $$ [HlA HlB HlC HlD]
  · isplitl [HlA]; · iexact HlA
    isplitl [HlB]; · iexact HlB
    isplitl [HlC]; · iexact HlC
    unfold lPts; iexact HlD
  ihave Hc := (comm_join c _ _ _) $$ [Hrow0 Hrow1 Hrow2]
  · isplitl [Hrow0]; · unfold slotPts; iexact Hrow0
    isplitl [Hrow1]; · unfold slotPts; iexact Hrow1
    unfold slotPts; iexact Hrow2
  -- the six own cells close: their counters at zero are the core's again
  imod (Rounds.cell_close ER (sched m ρ) (Set.mem_univ (K (c, 1))) (fun h => h) (R := 0 + 1) (duties_later m ρ (sendCell c 0))) $$ [HatS0] with HzS0
  · isplitr; · iexact HIS0
    iexact HatS0
  imod (Rounds.cell_close ER (sched m ρ) (Set.mem_univ (K (c, 2))) (fun h => h) (R := 0 + 1) (duties_later m ρ (sendCell c 1))) $$ [HatS1] with HzS1
  · isplitr; · iexact HIS1
    iexact HatS1
  imod (Rounds.cell_close ER (sched m ρ) (Set.mem_univ (K (c, 3))) (fun h => h) (R := 0 + 1) (duties_later m ρ (sendCell c 2))) $$ [HatS2] with HzS2
  · isplitr; · iexact HIS2
    iexact HatS2
  imod (Rounds.cell_close ER (sched m ρ) (Set.mem_univ (K (c, 4))) (fun h => h) (R := 0 + 1) (duties_later m ρ (recvCell c 0))) $$ [HatR0] with HzR0
  · isplitr; · iexact HIR0
    iexact HatR0
  imod (Rounds.cell_close ER (sched m ρ) (Set.mem_univ (K (c, 5))) (fun h => h) (R := 0 + 1) (duties_later m ρ (recvCell c 1))) $$ [HatR1] with HzR1
  · isplitr; · iexact HIR1
    iexact HatR1
  imod (Rounds.cell_close ER (sched m ρ) (Set.mem_univ (K (c, 6))) (fun h => h) (R := 0 + 1) (duties_later m ρ (recvCell c 2))) $$ [HatR2] with HzR2
  · isplitr; · iexact HIR2
    iexact HatR2
  rw [wp_ret]; imodintro
  iapply Hk
  unfold bodyPost Φ₁ scr Dat.owesAt Pipeline.owesWithin
  rw [show (dats m ρ 0 c).owed t₀.succ = 0 from rfl, bigSep_fin6]
  isplitl [Hl Hc HzS0 HzS1 HzS2 HzR0 HzR1 HzR2]
  · isplitl [Hl Hc]
    · isplitl [Hl]
      · iexists _; iexact Hl
      · iexact Hc
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sendS 2), ()) (insert (SemLoc.dma (sendS 0), ()) (insert (SemLoc.dma (sendS 1), ()) (insert (SemLoc.dma (recvS 2), ()) (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.Kernel.Coll

end
-- ==== Proof.Kernel.Launch.lean ====
/-
  The launch: the ghost state of the protocol is created once for the whole mesh and dealt to the four devices,
  each device's semaphores at zero become its seven cells' invariants, the duty tokens travel to the devices that
  pay them, the credit each device is owed at launch is counted, and the pipeline's launch theorem turns
  "every device's body is proved" into the run of the whole program.
-/
import proofs.«900911_g7700000000000912_dist_max_ax0_shard0_i_m1536_n768_v7x_i4_bf16_1_alg».proof.Proof.Kernel.Data

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m ρ 0 c).share w = fullShare := by unfold Dat.share; split <;> rfl

/-! ## The cells and the tokens of the whole mesh -/

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- The twenty-eight cells of the protocol. -/
def collCells : Finset (GSem nD τ sig) := Finset.univ.map ⟨kcell, kcell_injective⟩

/-- The nine duties of a device's own cells: on which cell (the barrier three times, then the sends, then the
    receives), and which duty of it. -/
def tcell : Fin 9 → Fin 7 := fun
  | 0 => 0 | 1 => 0 | 2 => 0 | 3 => 1 | 4 => 2 | 5 => 3 | 6 => 4 | 7 => 5 | 8 => 6
def tduty : Fin 9 → Fin 3 := fun
  | 0 => 0 | 1 => 1 | 2 => 2 | 3 => 0 | 4 => 0 | 5 => 0 | 6 => 0 | 7 => 0 | 8 => 0

theorem tcell_tduty_injective : ∀ j j' : Fin 9, tcell j = tcell j' → tduty j = tduty j' → j = j' := by decide

abbrev tokOf (cj : Dev nD × Fin 9) : GSem nD τ sig × ℕ × Fin 3 := (kcell (cj.1, tcell cj.2), 0, tduty cj.2)

theorem tokOf_injective : Function.Injective (tokOf : Dev nD × Fin 9 → GSem nD τ sig × ℕ × Fin 3) := by
  rintro ⟨c, j⟩ ⟨c', j'⟩ h
  have h1 : ((c, tcell j) : Dev nD × Fin 7) = (c', tcell j') := kcell_injective (congrArg Prod.fst h)
  have h2 : tduty j = tduty j' := congrArg (fun x : GSem nD τ sig × ℕ × Fin 3 => x.2.2) h
  have hc : c = c' := congrArg Prod.fst h1
  have hk : tcell j = tcell j' := congrArg Prod.snd h1
  subst hc
  have hj : j = j' := tcell_tduty_injective j j' hk h2
  subst hj; rfl

/-- The thirty-six duty tokens of the protocol's one round. -/
def collToks : Finset (GSem nD τ sig × ℕ × Fin 3) := Finset.univ.map ⟨tokOf, tokOf_injective⟩

/-- The launch element: the pipeline's staging cells beside the protocol's. -/
def u₀ : UU :=
  (initOf (Pipeline.cells cfgs cellOf_inj) (Pipeline.launchToks cfgs cellOf_inj), initOf collCells collToks)

/-- The duty tokens of device `c`'s own cells, as minted. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c`: the round state of its seven cells, its positions and the
    reached-marks, the tokens of its own cells' duties. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the step over the whole mesh makes of it. -/
def G' (c : Dev nD) : sProp 𝕄 := iprop(∃ K, ghost m ρ K c)

theorem sep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- Funding: the protocol's half of the launch element is every device's deal. -/
theorem fund_coll : BI.own (ER (initOf collCells collToks)) ⊢ (|==> bigSep Finset.univ (G m ρ) : sProp 𝕄) := by
  have hX (Φ : GSem nD τ sig → sProp 𝕄) : bigSep collCells Φ = bigSep Finset.univ fun c : Dev nD => bigSep Finset.univ fun k : Fin 7 => Φ (kcell (c, k)) := by
    unfold collCells; rw [bigSep_map, bigSep_univ_prod]; rfl
  have hT : bigSep collToks (fun x => (dutyTok ER x.1 x.2.1 x.2.2 : sProp 𝕄)) = bigSep Finset.univ fun c : Dev nD => toks c := by
    unfold collToks; rw [bigSep_map, bigSep_univ_prod]
    exact bigSep_congr fun c _ => by unfold toks; rw [sep_fin9]; rfl
  iintro HX
  imod (Rounds.fund ER (sched m ρ) collCells collToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the six own ones scoped to the kernel, the barrier the runtime's -/

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, sep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

/-- One device: its seven counters at zero and round states become its seven cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens around the mesh and regrouping -/

theorem ghost_intro (K : Dev nD × Fin 7 → ℕ) (c : Dev nD) : iprop(records m ρ K ∗ positions c ∗ payToks c) ⊢ G' m ρ c := by
  unfold G' ghost
  iintro H
  iexists K
  iexact H

/-- Barrier duty `d` of a device is paid by the device `3 - d` places on: summed over the mesh, every device holds
    duty `d` of the device `d + 1` places on. The same for the receive cell of row `i`. The send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv shE1 (fun c : Dev nD => (dutyTok ER (barCell c) 0 (0 : Fin 3) : sProp 𝕄)),
    bigSep_univ_equiv shE2 (fun c : Dev nD => (dutyTok ER (barCell c) 0 (1 : Fin 3) : sProp 𝕄)),
    bigSep_univ_equiv shE3 (fun c : Dev nD => (dutyTok ER (barCell c) 0 (2 : Fin 3) : sProp 𝕄)),
    bigSep_univ_equiv shE1 (fun c : Dev nD => (dutyTok ER (recvCell c 0) 0 (0 : Fin 3) : sProp 𝕄)),
    bigSep_univ_equiv shE2 (fun c : Dev nD => (dutyTok ER (recvCell c 1) 0 (0 : Fin 3) : sProp 𝕄)),
    bigSep_univ_equiv shE3 (fun c : Dev nD => (dutyTok ER (recvCell c 2) 0 (0 : Fin 3) : sProp 𝕄))]
  iintro ⟨B0, B1, B2, S0, S1, S2, R0, R1, R2⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

/-- The step over the whole mesh: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What the mesh owes device `c` at launch: each summand of what a device owes is a tally on a cell of the device a fixed
    number of places on, so summed over the mesh it is that tally on `c`'s own cell; the three units on the barrier cell add up. -/
theorem launch_creds (c : Dev nD) : (Pipeline.launchCred O₀ c : sProp 𝕄) ⊢ creds c := by
  have hb (k k' : ℕ) (h1 : ∀ c, sh k (sh k' c) = c) (h2 : ∀ d, sh k' (sh k d) = d) :
      (Pipeline.launchCred (fun d : Dev nD => (tallyAt (barCell (sh k d)) () 1 : CellTallies nD τ sig Unit)) c : sProp 𝕄) ⊢ cred (tallyAt (barCell c) () 1) :=
    Pipeline.launchCred_tallyAt (.reg barS) (sh k) (sh k') h1 h2 () 1 c
  have hr (i : Fin 3) (k k' : ℕ) (h1 : ∀ c, sh k (sh k' c) = c) (h2 : ∀ d, sh k' (sh k d) = d) :
      (Pipeline.launchCred (fun d : Dev nD => (tallyAt (recvCell (sh k d) i) () N : CellTallies nD τ sig Unit)) c : sProp 𝕄) ⊢ cred (tallyAt (recvCell c i) () N) :=
    Pipeline.launchCred_tallyAt (.dma (recvS i)) (sh k) (sh k') h1 h2 () N c
  have e0 : (Pipeline.launchCred O₀ c : sProp 𝕄) = iprop(Pipeline.launchCred O₁ c ∗ Pipeline.launchCred (fun d : Dev nD => (tallyAt (barCell (sh 1 d)) () 1 : CellTallies nD τ sig Unit)) c) :=
    Pipeline.launchCred_add O₁ (fun d : Dev nD => (tallyAt (barCell (sh 1 d)) () 1 : CellTallies nD τ sig Unit)) c
  have e1 : (Pipeline.launchCred O₁ c : sProp 𝕄) = iprop(Pipeline.launchCred O₂ c ∗ Pipeline.launchCred (fun d : Dev nD => (tallyAt (barCell (sh 2 d)) () 1 : CellTallies nD τ sig Unit)) c) :=
    Pipeline.launchCred_add O₂ (fun d : Dev nD => (tallyAt (barCell (sh 2 d)) () 1 : CellTallies nD τ sig Unit)) c
  have e2 : (Pipeline.launchCred O₂ c : sProp 𝕄) = iprop(Pipeline.launchCred O₃ c ∗ Pipeline.launchCred (fun d : Dev nD => (tallyAt (barCell (sh 3 d)) () 1 : CellTallies nD τ sig Unit)) c) :=
    Pipeline.launchCred_add O₃ (fun d : Dev nD => (tallyAt (barCell (sh 3 d)) () 1 : CellTallies nD τ sig Unit)) c
  have e3 : (Pipeline.launchCred O₃ c : sProp 𝕄) = iprop(Pipeline.launchCred O₄ c ∗ Pipeline.launchCred (fun d : Dev nD => (tallyAt (recvCell (sh 2 d) 1) () N : CellTallies nD τ sig Unit)) c) :=
    Pipeline.launchCred_add O₄ (fun d : Dev nD => (tallyAt (recvCell (sh 2 d) 1) () N : CellTallies nD τ sig Unit)) c
  have e4 : (Pipeline.launchCred O₄ c : sProp 𝕄) = iprop(Pipeline.launchCred O₅ c ∗ Pipeline.launchCred (fun d : Dev nD => (tallyAt (recvCell (sh 1 d) 0) () N : CellTallies nD τ sig Unit)) c) :=
    Pipeline.launchCred_add O₅ (fun d : Dev nD => (tallyAt (recvCell (sh 1 d) 0) () N : CellTallies nD τ sig Unit)) c
  have e5 : (Pipeline.launchCred O₅ c : sProp 𝕄) = iprop(Pipeline.launchCred (fun _ : Dev nD => (0 : CellTallies nD τ sig Unit)) c ∗ Pipeline.launchCred (fun d : Dev nD => (tallyAt (recvCell (sh 3 d) 2) () N : CellTallies nD τ sig Unit)) c) :=
    Pipeline.launchCred_add (fun _ : Dev nD => (0 : CellTallies nD τ sig Unit)) (fun d : Dev nD => (tallyAt (recvCell (sh 3 d) 2) () N : CellTallies nD τ sig Unit)) c
  have h3 : iprop(cred (tallyAt (barCell c) () 1) ∗ cred (tallyAt (barCell c) () 1) ∗ cred (tallyAt (barCell c) () 1)) ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  rw [e0, e1, e2, e3, e4, e5]
  unfold creds
  iintro ⟨⟨⟨⟨⟨⟨-, H2⟩, H0⟩, H1⟩, B3⟩, B2⟩, B1⟩
  ihave C1 := (hb 1 3 sh13 sh31) $$ B1
  ihave C2 := (hb 2 2 sh22 sh22) $$ B2
  ihave C3 := (hb 3 1 sh31 sh13) $$ B3
  ihave V0 := (hr 0 1 3 sh13 sh31) $$ H0
  ihave V1 := (hr 1 2 2 sh22 sh22) $$ H1
  ihave V2 := (hr 2 3 1 sh31 sh13) $$ H2
  isplitl [C1 C2 C3]
  · iapply h3
    isplitl [C1]; · iexact C1
    isplitl [C2]; · iexact C2
    iexact C3
  isplitl [V0]; · iexact V0
  isplitl [V1]; · iexact V1
  iexact V2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N)
      = iprop(scr c ∗ bigSep Finset.univ fun k : Fin 6 => semVal ((c : Thread nD τ), osem k) 0) from rfl, scopedRest0_eq]
  unfold scr
  iintro ⟨Hr, Hz⟩
  isplitr; · iempintro
  isplitl [Hz]; · unfold Pipeline.ownSems0; iexact Hz
  iexact Hr

/-- The pipeline waits only on its two staging cells, which are none of the protocol's. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given every
    device's body: every weakly fair execution of @main terminates, and every final state has each device's
    arrays at the contents the proof data computes. -/
theorem run_main (hbody : ∀ c : Dev nD, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_coll m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array's one block is the whole array: after the one write-back it holds what the body left in the
    staging buffer, the computed row. -/
theorem finalA_out (c : Dev nD) : finalA m ρ c (1 : Fin 2) = outAt m ρ c := by
  unfold finalA
  rw [show cfg0.N = (t₀ : Fin cfg0.N).val + 1 from rfl, (dats m ρ 0 c).arrAt_succ (1 : Fin 2) t₀, if_pos (flush0_1 t₀)]
  exact Memref.write_access_unit_zero_univ (Elt F) main_v1 (off := fun a => win0_1.index t₀ a * win0_1.size a)
    (funext fun a => Nat.zero_mul _) _ _ _

/-- info: 'Cert.Kernel.Coll.run_main' depends on axioms: [propext, Classical.choice, Quot.sound] -/
#guard_msgs in #print axioms run_main

end Cert.Kernel.Coll

end
-- ==== Proof.Kernel.Frames.lean ====
/-
  The program's run on the four devices with both facts about the final memory named: each device's argument block
  ends as it was, and each device's result array ends at the maximum of the four devices' rows of column maxima.
-/
import proofs.«900911_g7700000000000912_dist_max_ax0_shard0_i_m1536_n768_v7x_i4_bf16_1_alg».proof.Proof.Kernel.Body
import proofs.«900911_g7700000000000912_dist_max_ax0_shard0_i_m1536_n768_v7x_i4_bf16_1_alg».proof.Proof.Kernel.Launch

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The staging buffer's block is the whole argument array (no grid: one block, at offset zero). -/
theorem xstg_eq (c : Dev nD) : xstg m ρ c = m ((c : Thread nD τ).loc main_arg0) := by
  unfold xstg
  exact Memref.read_access_unit_zero (Elt F) main_arg0 (off := fun a => win0_0.index (0 : Fin 1) a * win0_0.size a)
    (funext fun a => Nat.zero_mul _) _ _

/-- Every weakly fair execution of the four threads ends, faults nowhere, leaves each device's argument block unchanged
    and each device's result array at `outAt`. -/
theorem run_both :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨((h c (1 : Fin 2)).trans (finalA_out m ρ c)), ((h c (0 : Fin 2)).trans (finalA_x m ρ c))⟩)
    (run_main m ρ (body_obligation m ρ))

end Cert.Kernel.Coll

end
-- ==== Proof.KernelIdeal.Proto.lean ====
/-
  Four devices, one collective: every device reduces its own block of rows to a row of column maxima,
  every device sends that row to each of the three others, and every device ends with the maximum of
  the four rows. This module fixes the vocabulary the rest of the proof is written over: the cyclic
  shifts of the mesh, the seven semaphore cells of a device (the entry barrier, three send cells, three
  receive cells), what each buffer holds at each stage, and the one-round schedule that says who pays
  which cell, how much, and what the owner of the cell receives with the payment.
-/
import proofs.«900911_g7700000000000912_dist_max_ax0_shard0_i_m1536_n768_v7x_i4_bf16_1_alg».proof.Proof.Gen.KernelIdeal
import proofs.«900911_g7700000000000912_dist_max_ax0_shard0_i_m1536_n768_v7x_i4_bf16_1_alg».proof.Proof.Gen.KernelIdeal.Skeleton
import proofs.«900911_g7700000000000912_dist_max_ax0_shard0_i_m1536_n768_v7x_i4_bf16_1_alg».proof.Proof.Gen.KernelIdeal.Launch
import proofs.«900911_g7700000000000912_dist_max_ax0_shard0_i_m1536_n768_v7x_i4_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the collective's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def st0 : MemSt nD τ sig (Elt F) := ⟨m, fun _ => 0, ρ⟩

/-! ## The mesh as a cycle: `sh k c` is the device `k` places after `c` -/

def sh (k : ℕ) (c : Dev nD) : Dev nD := ⟨(c.val + k) % 4, Nat.mod_lt _ (by decide)⟩

theorem sh13 (c : Dev nD) : sh 1 (sh 3 c) = c := by revert c; decide
theorem sh31 (c : Dev nD) : sh 3 (sh 1 c) = c := by revert c; decide
theorem sh22 (c : Dev nD) : sh 2 (sh 2 c) = c := by revert c; decide

def shE1 : Dev nD ≃ Dev nD := ⟨sh 1, sh 3, sh31, sh13⟩
def shE2 : Dev nD ≃ Dev nD := ⟨sh 2, sh 2, sh22, sh22⟩
def shE3 : Dev nD ≃ Dev nD := ⟨sh 3, sh 1, sh13, sh31⟩

/-- The shift by `k + 1` as a permutation of the mesh, and its inverse the shift by `3 - k`. -/
def shE (k : Fin 3) : Dev nD ≃ Dev nD := ⟨sh (k.val + 1), sh (3 - k.val), by revert k; decide, by revert k; decide⟩

theorem sh_back (k : Fin 3) (c : Dev nD) : sh (k.val + 1) (sh (3 - k.val) c) = c := by revert k c; decide
theorem sh_forth (k : Fin 3) (c : Dev nD) : sh (3 - k.val) (sh (k.val + 1) c) = c := by revert k c; decide

/-- The kernel's six device computations: the three entry signals go one, two and three places on;
    the three copies go two, one and three places on, in that order. -/
theorem dev1_eq (c : Dev nD) : (⟨k0_dev1 c, k0_dev1_lt c⟩ : Dev nD) = sh 1 c :=
  Fin.ext ((by decide +kernel : ∀ c : Dev nD, k0_dev1 c = (sh 1 c).val) c)
theorem dev2_eq (c : Dev nD) : (⟨k0_dev2 c, k0_dev2_lt c⟩ : Dev nD) = sh 2 c :=
  Fin.ext ((by decide +kernel : ∀ c : Dev nD, k0_dev2 c = (sh 2 c).val) c)
theorem dev3_eq (c : Dev nD) : (⟨k0_dev3 c, k0_dev3_lt c⟩ : Dev nD) = sh 3 c :=
  Fin.ext ((by decide +kernel : ∀ c : Dev nD, k0_dev3 c = (sh 3 c).val) c)
theorem dev4_eq (c : Dev nD) : (⟨k0_dev4 c, k0_dev4_lt c⟩ : Dev nD) = sh 2 c :=
  Fin.ext ((by decide +kernel : ∀ c : Dev nD, k0_dev4 c = (sh 2 c).val) c)
theorem dev5_eq (c : Dev nD) : (⟨k0_dev5 c, k0_dev5_lt c⟩ : Dev nD) = sh 1 c :=
  Fin.ext ((by decide +kernel : ∀ c : Dev nD, k0_dev5 c = (sh 1 c).val) c)
theorem dev6_eq (c : Dev nD) : (⟨k0_dev6 c, k0_dev6_lt c⟩ : Dev nD) = sh 3 c :=
  Fin.ext ((by decide +kernel : ∀ c : Dev nD, k0_dev6 c = (sh 3 c).val) c)

/-! ## The memrefs -/

abbrev xM : Memref sig .tc .vmem S1536x768 .f32 := Memref.whole cc0_stg0_0
abbrev oM : Memref sig .tc .vmem S1x768 .f32 := Memref.whole cc0_stg1_0
/-- The row of column maxima of the device's own block. -/
abbrev lM : Memref sig .tc .vmem S1x768 .f32 := Memref.whole cc0_scratch0
/-- The three landing rows: row `i` receives from the device `i + 1` places before. -/
abbrev cM : Memref sig .tc .vmem S3x1x768 .f32 := Memref.whole cc0_scratch1

theorem inbC (i : Fin 3) : ∀ a, (![i.val, 0, 0] : Fin 3 → Nat) a + S1x1x768.size a ≤ S3x1x768.size a := by revert i; decide
theorem inbS (i : Fin 3) : ∀ a, (![i.val] : Fin 1 → Nat) a + S1.size a ≤ S3.size a := by revert i; decide

abbrev rectC (i : Fin 3) : Rect S3x1x768 := Rect.unit (s := S3x1x768) ![i.val, 0, 0] S1x1x768.size (inbC i)

/-- Landing row `i` as the kernel names it: a slice of the three-row buffer with the unit axis dropped. -/
abbrev slotM (i : Fin 3) : Memref sig .tc .vmem S1x768 .f32 :=
  (cM.slice (rectC i) (fun _ => rfl)).squeeze S1x768 squeezes_S1x1x768_S1x768

abbrev sendS (i : Fin 3) : DmaSem sig := ((cc0_scratch2.slice (Rect.unit (s := S3) ![i.val] S1.size (inbS i))).squeeze S_ squeezes_S1_S_).sem
abbrev recvS (i : Fin 3) : DmaSem sig := ((cc0_scratch3.slice (Rect.unit (s := S3) ![i.val] S1.size (inbS i))).squeeze S_ squeezes_S1_S_).sem
abbrev barS : Sem sig := (SemArray.scalar (sig.barrier 0 rfl) : Sems sig S_).sem

theorem sendS_val (i : Fin 3) : (sendS i).val = 2 + i.val := by revert i; decide
theorem recvS_val (i : Fin 3) : (recvS i).val = 5 + i.val := by revert i; decide

abbrev barCell (c : Dev nD) : GSem nD τ sig := ((c : Thread nD τ), .reg barS)
abbrev sendCell (c : Dev nD) (i : Fin 3) : GSem nD τ sig := ((c : Thread nD τ), .dma (sendS i))
abbrev recvCell (c : Dev nD) (i : Fin 3) : GSem nD τ sig := ((c : Thread nD τ), .dma (recvS i))

/-- What a semaphore is in the protocol. -/
inductive Role where
  | bar | send (i : Fin 3) | recv (i : Fin 3) | other
deriving DecidableEq

def roleOf (s : SemLoc sig) : Role :=
  if s = .reg barS then .bar
  else if s = .dma (sendS 0) then .send 0 else if s = .dma (sendS 1) then .send 1 else if s = .dma (sendS 2) then .send 2
  else if s = .dma (recvS 0) then .recv 0 else if s = .dma (recvS 1) then .recv 1 else if s = .dma (recvS 2) then .recv 2
  else .other

theorem role_bar : roleOf (.reg barS) = .bar := by decide
theorem role_send (i : Fin 3) : roleOf (.dma (sendS i)) = .send i := by revert i; decide
theorem role_recv (i : Fin 3) : roleOf (.dma (recvS i)) = .recv i := by revert i; decide

theorem eq_of_role_bar {s : SemLoc sig} (h : roleOf s = .bar) : s = .reg barS := by
  unfold roleOf at h; split_ifs at h <;> first | assumption | cases h
theorem eq_of_role_send {s : SemLoc sig} {i : Fin 3} (h : roleOf s = .send i) : s = .dma (sendS i) := by
  unfold roleOf at h; split_ifs at h <;> first | (cases h; assumption) | cases h
theorem eq_of_role_recv {s : SemLoc sig} {i : Fin 3} (h : roleOf s = .recv i) : s = .dma (recvS i) := by
  unfold roleOf at h; split_ifs at h <;> first | (cases h; assumption) | cases h

/-- The kernel's OWN (scoped) semaphores, as the launch indexes them: the three send, then the three receive. -/
abbrev osem : Fin 6 → SemLoc sig := fun
  | 0 => .dma (sendS 0) | 1 => .dma (sendS 1) | 2 => .dma (sendS 2) | 3 => .dma (recvS 0) | 4 => .dma (recvS 1) | 5 => .dma (recvS 2)
/-- All seven of the protocol's, as this proof indexes them: the barrier, the sends, the receives. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)

/-- The index of a send or receive cell among the seven. -/
def kS (i : Fin 3) : Fin 7 := ⟨1 + i.val, by omega⟩
def kR (i : Fin 3) : Fin 7 := ⟨4 + i.val, by omega⟩
theorem kcell_send (c : Dev nD) (i : Fin 3) : kcell (c, kS i) = sendCell c i := by fin_cases i <;> rfl
theorem kcell_recv (c : Dev nD) (i : Fin 3) : kcell (c, kR i) = recvCell c i := by fin_cases i <;> rfl

/-- One row's transfer credit. -/
abbrev N : ℕ := (lM : Memref sig .tc .vmem S1x768 .f32).view.dmaCredit
theorem N_pos : 0 < N := View.dmaCredit_pos _ (by decide)

/-! ## Contents -/

/-- The device's block of the input as its staging buffer holds it. -/
def xstg (c : Dev nD) : (cc0_stg0_0 : Ref sig .tc).ty.Contents (Elt F) :=
  (win0_0.blk (0 : Fin 1)).view.read (Elt F) ((st0 m ρ).mem ((c : Thread nD τ).loc main_arg0))

/-- The row of column maxima of device `c`'s block. -/
def lmax (c : Dev nD) : (cc0_scratch0 : Ref sig .tc).ty.Contents (Elt F) := k0_pay2 (xstg m ρ c)

/-- The first index of a row. -/
def idx0 : S1x768.Idx := fun a => ⟨0, by revert a; decide⟩

/-- The three-row buffer after the row `v` has landed in row `i` (the other rows hold nothing of interest: they are
    filled with the row's first entry, so that the contents are a function of `v` alone). -/
def landed (i : Fin 3) (v : (cc0_scratch0 : Ref sig .tc).ty.Contents (Elt F)) : (cc0_scratch1 : Ref sig .tc).ty.Contents (Elt F) :=
  (slotM i).view.write (Elt F) (fun _ => v idx0) v Finset.univ

/-- What a load of row `i` of the three-row buffer reads after `v` has landed there. -/
def recvd (i : Fin 3) (v : (cc0_scratch0 : Ref sig .tc).ty.Contents (Elt F)) : Vec F S1x1x768 .f32 :=
  (cM : Memref sig .tc .vmem S3x1x768 .f32).view.readAt (Elt F) (rectC i).toLoadRect (landed i v)

/-- The kernel's result on device `c`: the maximum of its own row and the three received, in the order received. -/
def outAt (c : Dev nD) : (cc0_stg1_0 : Ref sig .tc).ty.Contents (Elt F) :=
  k0_pay1 (k0_pay4 (k0_pay3 (lmax m ρ c) (recvd 0 (lmax m ρ (sh 3 c)))) (recvd 1 (lmax m ρ (sh 2 c)))) (recvd 2 (lmax m ρ (sh 1 c)))

/-! ## The points-to assertions the schedule speaks of -/

/-- A share `q` of the device's own row at contents `f`. -/
def lPts (c : Dev nD) (q : PosShare TreeShare) (f : (cc0_scratch0 : Ref sig .tc).ty.Contents (Elt F)) : sProp 𝕄 :=
  (lM : Memref sig .tc .vmem S1x768 .f32).view.loc (c : Thread nD τ) ↦[(lM : Memref sig .tc .vmem S1x768 .f32).view.set]{q} f
/-- Landing row `i` of device `c`, outright, the buffer at contents `f`. -/
def slotPts (c : Dev nD) (i : Fin 3) (f : (cc0_scratch1 : Ref sig .tc).ty.Contents (Elt F)) : sProp 𝕄 :=
  (slotM i).view.loc (c : Thread nD τ) ↦[(slotM i).view.set]{fullShare} f

instance lPts_storable (c : Dev nD) (q) (f) : BI.Storable (upEmb : UEmb _ 𝕄) (lPts (F := F) c q f) := by unfold lPts; infer_instance
instance slotPts_storable (c : Dev nD) (i) (f) : BI.Storable (upEmb : UEmb _ 𝕄) (slotPts (F := F) c i f) := by unfold slotPts; infer_instance

/-- The shares of the device's own row: one under each copy in flight, the last kept to read the row meanwhile. -/
def qs : Fin 3 → PosShare TreeShare := fun
  | 0 => fullShare.right.left | 1 => fullShare.left | 2 => fullShare.right.right.left
def qKeep : PosShare TreeShare := fullShare.right.right.right

/-! ## The schedule: one round -/

/-- Duty `d` of device `c`'s barrier cell is paid by the device `3 - d` places on (whose signal number `d + 1` names `c`);
    with it that device hands `c` the landing row `c` will write: its row `2 - d`. -/
def rowOf (d : Fin 3) : Fin 3 := ⟨2 - d.val, by omega⟩
def barPay (c : Dev nD) (d : Fin 3) : sProp 𝕄 := iprop(∃ f, slotPts (sh (3 - d.val) c) (rowOf d) f)
/-- Row `i` of `c` holds the row of maxima of the device `i + 1` places before `c`. -/
def recvPay (c : Dev nD) (i : Fin 3) : sProp 𝕄 := slotPts c i (landed i (lmax m ρ (sh (3 - i.val) c)))
/-- The share lent to copy `i` comes back. -/
def sendPay (c : Dev nD) (i : Fin 3) : sProp 𝕄 := lPts c (qs i) (lmax m ρ c)

def sched : Rounds.Schedule (GSem nD τ sig) (Fin 3) 𝕄 where
  duties g r := if r = 0 ∧ g.1.2 = .tc then (match roleOf g.2 with | .bar => Finset.univ | .send _ => {0} | .recv _ => {0} | .other => ∅) else ∅
  unitless _ := False
  amount g _ _ := match roleOf g.2 with | .bar => 1 | _ => N
  payload g _ d := match roleOf g.2 with
    | .bar => barPay g.1.1 d
    | .send i => sendPay m ρ g.1.1 i
    | .recv i => recvPay m ρ g.1.1 i
    | .other => iprop(emp)
  amount_pos g _ _ _ := by
    show 0 < (match roleOf g.2 with | .bar => 1 | _ => N)
    split
    · exact Nat.one_pos
    · exact N_pos

instance sched_payload_storable (g : GSem nD τ sig) (r : ℕ) (d : Fin 3) :
    BI.Storable (upEmb : UEmb _ 𝕄) ((sched (F := F) m ρ).payload g r d) := by
  show BI.Storable upEmb (match roleOf g.2 with
    | .bar => barPay g.1.1 d
    | .send i => sendPay m ρ g.1.1 i
    | .recv i => recvPay m ρ g.1.1 i
    | .other => iprop(emp))
  unfold barPay recvPay sendPay
  split <;> infer_instance

section Sched
variable (c : Dev nD) (i : Fin 3)

theorem duties_bar : (sched (F := F) m ρ).duties (barCell c) 0 = Finset.univ := by
  dsimp only [sched]
  refine (if_pos ⟨rfl, rfl⟩).trans ?_
  rw [role_bar]
theorem duties_send : (sched (F := F) m ρ).duties (sendCell c i) 0 = {0} := by
  dsimp only [sched]
  refine (if_pos ⟨rfl, rfl⟩).trans ?_
  rw [role_send]
theorem duties_recv : (sched (F := F) m ρ).duties (recvCell c i) 0 = {0} := by
  dsimp only [sched]
  refine (if_pos ⟨rfl, rfl⟩).trans ?_
  rw [role_recv]
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := by
  dsimp only [sched]
  rw [role_bar]
theorem amount_send (d : Fin 3) : (sched (F := F) m ρ).amount (sendCell c i) 0 d = N := by
  dsimp only [sched]
  rw [role_send]
theorem amount_recv (d : Fin 3) : (sched (F := F) m ρ).amount (recvCell c i) 0 d = N := by
  dsimp only [sched]
  rw [role_recv]

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c i) 0 = N := by
  unfold Schedule.expect Schedule.amountOf; rw [duties_send, Finset.sum_singleton, amount_send]
theorem expect_recv : (sched (F := F) m ρ).expect (recvCell c i) 0 = N := by
  unfold Schedule.expect Schedule.amountOf; rw [duties_recv, Finset.sum_singleton, amount_recv]

theorem payload_bar (d : Fin 3) : (sched (F := F) m ρ).payload (barCell c) 0 d = barPay c d := by
  dsimp only [sched]
  rw [role_bar]
theorem payload_send (d : Fin 3) : (sched (F := F) m ρ).payload (sendCell c i) 0 d = sendPay m ρ c i := by
  dsimp only [sched]
  rw [role_send]
theorem payload_recv (d : Fin 3) : (sched (F := F) m ρ).payload (recvCell c i) 0 d = recvPay m ρ c i := by
  dsimp only [sched]
  rw [role_recv]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of the barrier cell's round: the three rows this device will write, one from each of the others. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send : bigSep ((sched (F := F) m ρ).duties (sendCell c i) 0 \ ∅) (fun d => (sched (F := F) m ρ).payload (sendCell c i) 0 d) = sendPay m ρ c i := by
  rw [Finset.sdiff_empty, duties_send, bigSep_singleton, payload_send]
theorem rest_recv : bigSep ((sched (F := F) m ρ).duties (recvCell c i) 0 \ ∅) (fun d => (sched (F := F) m ρ).payload (recvCell c i) 0 d) = recvPay m ρ c i := by
  rw [Finset.sdiff_empty, duties_recv, bigSep_singleton, payload_recv]

end Sched

/-! ## What a device owes at launch, in the order it pays; the levels -/

/-- Before the third copy (three places on, row 2), the second (one place on, row 0), the first (two places on, row 1);
    before the third signal, the second, the first. Each payment peels the last summand. -/
def O₅ (c : Dev nD) : CellTallies nD τ sig Unit := 0 + tallyAt (recvCell (sh 3 c) 2) () N
def O₄ (c : Dev nD) : CellTallies nD τ sig Unit := O₅ c + tallyAt (recvCell (sh 1 c) 0) () N
def O₃ (c : Dev nD) : CellTallies nD τ sig Unit := O₄ c + tallyAt (recvCell (sh 2 c) 1) () N
def O₂ (c : Dev nD) : CellTallies nD τ sig Unit := O₃ c + tallyAt (barCell (sh 3 c)) () 1
def O₁ (c : Dev nD) : CellTallies nD τ sig Unit := O₂ c + tallyAt (barCell (sh 2 c)) () 1
def O₀ (c : Dev nD) : CellTallies nD τ sig Unit := O₁ c + tallyAt (barCell (sh 1 c)) () 1

def L (g : GSem nD τ sig) : Finset Unit := if g.1.2 = .tc then {()} else ∅
/-- The barrier cells at 1, the receive cells at 2, everything else (staging, send) at 0. -/
def lv (g : GSem nD τ sig) (_ : Unit) : ℕ := match roleOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by dsimp only [lv]; rw [role_bar]
theorem lv_recv (c : Dev nD) (i : Fin 3) : lv (recvCell c i) () = 2 := by
  dsimp only [lv]; rw [role_recv]
theorem lv_send (c : Dev nD) (i : Fin 3) : lv (sendCell c i) () = 0 := by
  dsimp only [lv]; rw [role_send]

theorem O₃_pos {c : Dev nD} {g : GSem nD τ sig} {u : Unit} (h : 0 < O₃ c g u) :
    g = recvCell (sh 3 c) 2 ∨ g = recvCell (sh 1 c) 0 ∨ g = recvCell (sh 2 c) 1 := by
  unfold O₃ O₄ O₅ at h
  simp only [Pi.add_apply, Finsupp.add_apply, tallyAt_apply, Pi.zero_apply, Finsupp.coe_zero, zero_add] at h
  by_contra hn
  rw [not_or, not_or] at hn
  have e1 : ¬ (g = recvCell (sh 3 c) 2 ∧ True) := fun h' => hn.1 h'.1
  have e2 : ¬ (g = recvCell (sh 1 c) 0 ∧ True) := fun h' => hn.2.1 h'.1
  have e3 : ¬ (g = recvCell (sh 2 c) 1 ∧ True) := fun h' => hn.2.2 h'.1
  rw [if_neg e1, if_neg e2, if_neg e3] at h
  exact Nat.lt_irrefl 0 h

theorem O₀_pos {c : Dev nD} {g : GSem nD τ sig} {u : Unit} (h : 0 < O₀ c g u) :
    (∃ d i, g = recvCell d i) ∨ (∃ d, g = barCell d) := by
  unfold O₀ O₁ O₂ at h
  simp only [Pi.add_apply, Finsupp.add_apply, tallyAt_apply] at h
  by_cases h3 : 0 < O₃ c g u
  · rcases O₃_pos h3 with rfl | rfl | rfl <;> exact Or.inl ⟨_, _, rfl⟩
  · by_contra hn
    rw [not_or] at hn
    have e3 : O₃ c g u = 0 := Nat.eq_zero_of_not_pos h3
    have f1 : ¬ (g = barCell (sh 3 c) ∧ True) := fun h' => hn.2 ⟨_, h'.1⟩
    have f2 : ¬ (g = barCell (sh 2 c) ∧ True) := fun h' => hn.2 ⟨_, h'.1⟩
    have f3 : ¬ (g = barCell (sh 1 c) ∧ True) := fun h' => hn.2 ⟨_, h'.1⟩
    rw [e3, if_neg f1, if_neg f2, if_neg f3] at h
    exact Nat.lt_irrefl 0 h

/-- A wait on a staging cell (level 0) is below everything a device ever owes (barrier and receive cells). -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, i, rfl⟩ | ⟨d, rfl⟩ <;> exact Finset.mem_singleton_self _)
      (fun p hp => by rw [Finset.mem_singleton.mp hp]; dsimp only [lv]; rw [hq])
      (fun g u hg => by
        rcases O₀_pos hg with ⟨d, i, rfl⟩ | ⟨d, rfl⟩
        · cases u; rw [lv_recv]; decide
        · cases u; rw [lv_bar]; decide)
  · rw [MayWait_zero]; iintro -; iempintro

/-- At its barrier wait (level 1) a device owes the three receive credits only (level 2). -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; exact le_of_eq (lv_bar c))
    (fun g u hg => by rcases O₃_pos hg with rfl | rfl | rfl <;> (cases u; rw [lv_recv]; decide))

end Cert.KernelIdeal.Coll

end
-- ==== Proof.KernelIdeal.Data.lean ====
/-
  What one device's thread starts from and what it must leave: the ghost state of the protocol (every cell's
  invariant, the device's positions in its own seven cells, the tokens of the nine duties it pays), the credit it is
  dealt at launch, its two scratch buffers; and the proof data the pipeline's launch asks for.
-/
import proofs.«900911_g7700000000000912_dist_max_ax0_shard0_i_m1536_n768_v7x_i4_bf16_1_alg».proof.Proof.KernelIdeal.Proto

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

/-- Every cell's invariant, under the names the launch allocated them at, and that every cell is at round 0 or later. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) : records m ρ K ⊢ cellInv ER (sched m ρ) (K ck) (kcell ck) :=
  sep_elim_left.trans (bigSep_elim (Finset.mem_univ ck))
theorem reached_at (K : Dev nD × Fin 7 → ℕ) (ck : Dev nD × Fin 7) : records m ρ K ⊢ reached ER (kcell ck) 0 :=
  sep_elim_right.trans (bigSep_elim (Finset.mem_univ ck))

/-- The tokens of the nine duties device `c` pays: a unit on each other device's barrier cell (its signal number `d + 1`
    pays duty `d` of the device `d + 1` places on), the receive cell of each row it fills, its own three send cells. -/
def payToks (c : Dev nD) : sProp 𝕄 :=
  iprop((dutyTok ER (barCell (sh 1 c)) 0 (0 : Fin 3) ∗ dutyTok ER (barCell (sh 2 c)) 0 (1 : Fin 3) ∗ dutyTok ER (barCell (sh 3 c)) 0 (2 : Fin 3))
    ∗ (dutyTok ER (recvCell (sh 1 c) 0) 0 (0 : Fin 3) ∗ dutyTok ER (recvCell (sh 2 c) 1) 0 (0 : Fin 3) ∗ dutyTok ER (recvCell (sh 3 c) 2) 0 (0 : Fin 3))
    ∗ (dutyTok ER (sendCell c 0) 0 (0 : Fin 3) ∗ dutyTok ER (sendCell c 1) 0 (0 : Fin 3) ∗ dutyTok ER (sendCell c 2) 0 (0 : Fin 3)))

/-- The device's positions: at the start of round 0 of each of its seven cells. -/
def positions (c : Dev nD) : sProp 𝕄 := bigSep Finset.univ fun k : Fin 7 => atPos ER (kcell (c, k)) 0 ∅ 0

def ghost (K : Dev nD × Fin 7 → ℕ) (c : Dev nD) : sProp 𝕄 := iprop(records m ρ K ∗ positions c ∗ payToks c)

/-- The credit the others owe device `c`: three units on its barrier cell, a row's credit on each receive cell. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m ρ K c) ∗ creds c ∗ levAts L lv)

/-- The device's two scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scr c)
/-- After the point: the scratch buffers whole again, the six own cells at zero, closed (the barrier cell is the runtime's). -/
def Φ₁ (c : Dev nD) : sProp 𝕄 := iprop(scr c ∗ bigSep Finset.univ fun k : Fin 6 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from, at the cells' names `K`. -/
def bodyPre (K : Dev nD × Fin 7 → ℕ) (c : Dev nD) : sProp 𝕄 :=
  iprop((ghost m ρ K c ∗ creds c ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves: its input block in place, the result row computed, nothing owed. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.Coll

end
-- ==== Proof.KernelIdeal.Pieces.lean ====
/-
  The buffers of one device as the protocol cuts them: the three landing rows are the three rows of one buffer (they
  tile it, so the whole buffer is their separating conjunction), the device's own row is lent in four shares (one under
  each copy in flight, one kept to read it meanwhile); a landing leaves the row's contents and nothing else; a load of
  a landing row reads through the whole buffer's view what the row's own view holds.
-/
import proofs.«900911_g7700000000000912_dist_max_ax0_shard0_i_m1536_n768_v7x_i4_bf16_1_alg».proof.Proof.KernelIdeal.Data
import Idealize.ShloMosaic.Lib.Pipeline.Value

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three landing rows tile their buffer -/

theorem slot_set (i : Fin 3) : (slotM i).view.set = (rectC i).set :=
  (Memref.set_view_squeeze (cM.slice (rectC i) (fun _ => rfl)) squeezes_S1x1x768_S1x768).trans (View.set_slice_whole cc0_scratch1 (rectC i))

/-- Row `i`'s elements, as a set of indices of the three-row buffer. -/
def slotSet (i : Fin 3) : Finset S3x1x768.Idx := (rectC i).set
theorem slot_set' (i : Fin 3) : (slotM i).view.set = slotSet i := slot_set i

theorem mem_rectC (i : Fin 3) (x : S3x1x768.Idx) : x ∈ (rectC i).set ↔ (x 0).val = i.val := by
  rw [Rect.mem_set_unit]
  have h1 : (x 1).val < 1 := (x 1).isLt
  have h2 : (x 2).val < 768 := (x 2).isLt
  constructor
  · intro h
    have h0 : i.val ≤ (x 0).val ∧ (x 0).val < i.val + 1 := h 0
    omega
  · intro h a
    match a with
    | ⟨0, _⟩ =>
      show i.val ≤ (x 0).val ∧ (x 0).val < i.val + 1
      omega
    | ⟨1, _⟩ =>
      show 0 ≤ (x 1).val ∧ (x 1).val < 0 + 1
      omega
    | ⟨2, _⟩ =>
      show 0 ≤ (x 2).val ∧ (x 2).val < 0 + 768
      omega

theorem mem_slotSet (i : Fin 3) (x : S3x1x768.Idx) : x ∈ slotSet i ↔ (x 0).val = i.val := mem_rectC i x

theorem slotSet_disjoint (i j : Fin 3) (h : i ≠ j) : Disjoint (slotSet i) (slotSet j) := by
  rw [Finset.disjoint_left]
  intro x hi hj
  rw [mem_slotSet] at hi hj
  exact h (Fin.ext (hi.symm.trans hj))

theorem slotSet_cover : (Finset.univ : Finset (Fin 3)).biUnion slotSet = Finset.univ := by
  ext x
  simp only [Finset.mem_biUnion, Finset.mem_univ, true_and, iff_true]
  exact ⟨⟨(x 0).val, (x 0).isLt⟩, (mem_slotSet _ x).mpr rfl⟩

theorem slotPts_eq (c : Dev nD) (i : Fin 3) (f : (cc0_scratch1 : Ref sig .tc).ty.Contents (Elt F)) :
    slotPts c i f = ((((c : Thread nD τ).loc cc0_scratch1) ↦[slotSet i]{fullShare} f) : sProp 𝕄) := by
  unfold slotPts
  exact congrArg (fun I : Finset S3x1x768.Idx => ((((c : Thread nD τ).loc cc0_scratch1) ↦[I]{fullShare} f) : sProp 𝕄)) (slot_set' i)

/-- The rows' sets as element sets of the device's buffer, and that together they are all of it. -/
theorem pts_cover (c : Dev nD) (f : Buf (Elt F) ((c : Thread nD τ).loc cc0_scratch1)) :
    ((((c : Thread nD τ).loc cc0_scratch1) ↦[(Finset.univ : Finset (Fin 3)).biUnion slotSet]{fullShare} f) : sProp 𝕄)
      = ((((c : Thread nD τ).loc cc0_scratch1) ↦{fullShare} f) : sProp 𝕄) :=
  congrArg (fun I : Finset S3x1x768.Idx => ((((c : Thread nD τ).loc cc0_scratch1) ↦[I]{fullShare} f) : sProp 𝕄)) slotSet_cover

/-- The three-row buffer, whole, is its three rows. -/
theorem comm_split (c : Dev nD) (f : Buf (Elt F) ((c : Thread nD τ).loc cc0_scratch1)) :
    ((((c : Thread nD τ).loc cc0_scratch1) ↦{fullShare} f) : sProp 𝕄) = iprop(slotPts c 0 f ∗ slotPts c 1 f ∗ slotPts c 2 f) := by
  have h : ((((c : Thread nD τ).loc cc0_scratch1) ↦[(Finset.univ : Finset (Fin 3)).biUnion slotSet]{fullShare} f) : sProp 𝕄)
      = bigSep (Finset.univ : Finset (Fin 3)) (fun i => (((c : Thread nD τ).loc cc0_scratch1) ↦[slotSet i]{fullShare} f)) :=
    pointsTo_biUnion (ℓ := (c : Thread nD τ).loc cc0_scratch1) (q := fullShare) (f := f) Finset.univ slotSet (fun i _ j _ hij => slotSet_disjoint i j hij)
  have h3 : bigSep (Finset.univ : Finset (Fin 3)) (fun i => ((((c : Thread nD τ).loc cc0_scratch1) ↦[slotSet i]{fullShare} f) : sProp 𝕄))
      = iprop(slotPts c 0 f ∗ slotPts c 1 f ∗ slotPts c 2 f) := by
    rw [slotPts_eq, slotPts_eq, slotPts_eq]
    exact bigSep_fin3 (F := F) _
  exact (pts_cover c f).symm.trans (h.trans h3)

/-- Three rows at three contents are the buffer whole at some contents. -/
theorem comm_join (c : Dev nD) (f0 f1 f2 : Buf (Elt F) ((c : Thread nD τ).loc cc0_scratch1)) :
    iprop(slotPts c 0 f0 ∗ slotPts c 1 f1 ∗ slotPts c 2 f2)
      ⊢ (iprop(∃ f : Buf (Elt F) ((c : Thread nD τ).loc cc0_scratch1), ((c : Thread nD τ).loc cc0_scratch1) ↦{fullShare} f) : sProp 𝕄) := by
  let fs : Fin 3 → Buf (Elt F) ((c : Thread nD τ).loc cc0_scratch1) := fun i => if i = 0 then f0 else if i = 1 then f1 else f2
  have h : bigSep (Finset.univ : Finset (Fin 3)) (fun i => ((((c : Thread nD τ).loc cc0_scratch1) ↦[slotSet i]{fullShare} fs i) : sProp 𝕄))
      ⊢ (iprop(∃ g, ⌜∀ t ∈ (Finset.univ : Finset (Fin 3)), ∀ i ∈ slotSet t, g i = fs t i⌝
          ∗ ((c : Thread nD τ).loc cc0_scratch1) ↦[(Finset.univ : Finset (Fin 3)).biUnion slotSet]{fullShare} g) : sProp 𝕄) :=
    pointsTo_biUnion_join (ℓ := (c : Thread nD τ).loc cc0_scratch1) (q := fullShare) Finset.univ slotSet fs f0 (fun i _ j _ hij => slotSet_disjoint i j hij)
  have h3 : iprop(slotPts c 0 f0 ∗ slotPts c 1 f1 ∗ slotPts c 2 f2)
      = bigSep (Finset.univ : Finset (Fin 3)) (fun i => ((((c : Thread nD τ).loc cc0_scratch1) ↦[slotSet i]{fullShare} fs i) : sProp 𝕄)) := by
    rw [slotPts_eq, slotPts_eq, slotPts_eq]
    exact (bigSep_fin3 (F := F) (fun i => ((((c : Thread nD τ).loc cc0_scratch1) ↦[slotSet i]{fullShare} fs i) : sProp 𝕄))).symm
  iintro H
  ihave H' := ((Entails.of_eq h3).trans h) $$ H
  icases H' with ⟨%g, -, Hg⟩
  iexists g
  iapply (Entails.of_eq (pts_cover c g))
  iexact Hg

/-! ## The device's own row in four shares -/

theorem lPts_eq (c : Dev nD) (q : PosShare TreeShare) (f : (cc0_scratch0 : Ref sig .tc).ty.Contents (Elt F)) :
    lPts c q f = (((c : Thread nD τ).loc cc0_scratch0) ↦{q} f : sProp 𝕄) := by unfold lPts; rw [View.set_whole]

theorem l_shares (c : Dev nD) (f : (cc0_scratch0 : Ref sig .tc).ty.Contents (Elt F)) :
    ((((c : Thread nD τ).loc cc0_scratch0) ↦{fullShare} f) : sProp 𝕄)
      ⊣⊢ iprop(lPts c (qs 1) f ∗ lPts c (qs 0) f ∗ lPts c (qs 2) f ∗ lPts c qKeep f) := by
  rw [lPts_eq, lPts_eq, lPts_eq, lPts_eq]
  have h1 : ((((c : Thread nD τ).loc cc0_scratch0) ↦{fullShare} f) : sProp 𝕄)
      ⊣⊢ iprop((((c : Thread nD τ).loc cc0_scratch0) ↦{fullShare.left} f) ∗ (((c : Thread nD τ).loc cc0_scratch0) ↦{fullShare.right} f)) :=
    pointsTo_share (PosShare.mem_left_op_right fullShare)
  have h2 : ((((c : Thread nD τ).loc cc0_scratch0) ↦{fullShare.right} f) : sProp 𝕄)
      ⊣⊢ iprop((((c : Thread nD τ).loc cc0_scratch0) ↦{fullShare.right.left} f) ∗ (((c : Thread nD τ).loc cc0_scratch0) ↦{fullShare.right.right} f)) :=
    pointsTo_share (PosShare.mem_left_op_right fullShare.right)
  have h3 : ((((c : Thread nD τ).loc cc0_scratch0) ↦{fullShare.right.right} f) : sProp 𝕄)
      ⊣⊢ iprop((((c : Thread nD τ).loc cc0_scratch0) ↦{fullShare.right.right.left} f) ∗ (((c : Thread nD τ).loc cc0_scratch0) ↦{fullShare.right.right.right} f)) :=
    pointsTo_share (PosShare.mem_left_op_right fullShare.right.right)
  constructor
  · iintro H
    ihave H1 := h1.1 $$ H
    icases H1 with ⟨HA, HR⟩
    ihave H2 := h2.1 $$ HR
    icases H2 with ⟨HB, HRR⟩
    ihave H3 := h3.1 $$ HRR
    icases H3 with ⟨HC, HD⟩
    isplitl [HA]; · iexact HA
    isplitl [HB]; · iexact HB
    isplitl [HC]; · iexact HC
    iexact HD
  · iintro ⟨HA, HB, HC, HD⟩
    iapply h1.2
    isplitl [HA]; · iexact HA
    iapply h2.2
    isplitl [HB]; · iexact HB
    iapply h3.2
    isplitl [HC]; · iexact HC
    iexact HD

/-! ## Whole-row loads and stores -/

abbrev r0 : Rect S1x768 := Rect.unit (s := S1x768) ![0, 0] S1x768.size inb_S1x768_S1x768_0_0
abbrev rX : Rect S1536x768 := Rect.unit (s := S1536x768) ![0, 0] S1536x768.size inb_S1536x768_S1536x768_0_0

theorem hz : (![0, 0] : Fin 2 → Nat) = fun _ => 0 := funext fun a => by fin_cases a <;> rfl
theorem read_x (f : (cc0_stg0_0 : Ref sig .tc).ty.Contents (Elt F)) : (xM : Memref sig .tc .vmem S1536x768 .f32).view.readAt (Elt F) rX.toLoadRect f = f :=
  Memref.readAt_unit_zero (Elt F) cc0_stg0_0 hz _ f
theorem read_l (f : (cc0_scratch0 : Ref sig .tc).ty.Contents (Elt F)) : (lM : Memref sig .tc .vmem S1x768 .f32).view.readAt (Elt F) r0.toLoadRect f = f :=
  Memref.readAt_unit_zero (Elt F) cc0_scratch0 hz _ f
theorem write_l (f w : (cc0_scratch0 : Ref sig .tc).ty.Contents (Elt F)) :
    ((lM : Memref sig .tc .vmem S1x768 .f32).access r0 : View sig .tc _ _ _).write (Elt F) f w Finset.univ = w :=
  Memref.write_access_unit_zero_univ (Elt F) cc0_scratch0 hz _ f w
theorem write_o (f w : (cc0_stg1_0 : Ref sig .tc).ty.Contents (Elt F)) :
    ((oM : Memref sig .tc .vmem S1x768 .f32).access r0 : View sig .tc _ _ _).write (Elt F) f w Finset.univ = w :=
  Memref.write_access_unit_zero_univ (Elt F) cc0_stg1_0 hz _ f w

/-! ## A landing -/

/-- On the row's own elements, the buffer after a landing is the landed row whatever it held before. -/
theorem landed_congr (i : Fin 3) (fd : (cc0_scratch1 : Ref sig .tc).ty.Contents (Elt F)) (v : (cc0_scratch0 : Ref sig .tc).ty.Contents (Elt F)) :
    ∀ j ∈ (slotM i).view.set, (slotM i).view.write (Elt F) fd v Finset.univ j = landed i v j := by
  intro j hj
  obtain ⟨y, rfl⟩ := View.exists_emb_of_mem_set _ hj
  unfold landed
  rw [View.write_emb_of_mem _ _ (Finset.mem_univ y), View.write_emb_of_mem _ _ (Finset.mem_univ y)]

/-- A load of row `i` through the three-row buffer touches the row's elements only. -/
theorem load_slot_sub (i : Fin 3) :
    (cM : Memref sig .tc .vmem S3x1x768 .f32).view.setOn (rectC i).toLoadRect.set ⊆ (slotM i).view.set := by
  rw [slot_set]
  intro x hx
  obtain ⟨y, hy, rfl⟩ := Finset.mem_map.mp hx
  exact hy

end Cert.KernelIdeal.Coll

end
-- ==== Proof.KernelIdeal.Body.lean ====
/-
  One device's thread, step by step. It pays a unit to each other device's barrier cell, handing each the landing row
  that device will fill; reduces its block to its row of column maxima; takes the three units of its own barrier cell,
  and with them the three rows it will fill; starts the three copies of its row, each under its own share of the row;
  reads its row through the share it kept; takes each landing in turn and with it the sender's row, folding the maximum;
  stores the result; takes the three shares back; and leaves its buffers whole and its six own cells at zero.
-/
import proofs.«900911_g7700000000000912_dist_max_ax0_shard0_i_m1536_n768_v7x_i4_bf16_1_alg».proof.Proof.KernelIdeal.Pieces

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The landing row a device hands over with its signal number `j + 1`: its row `2 - j`. -/
theorem barPay_give (c : Dev nD) (j : Fin 3) (f : (cc0_scratch1 : Ref sig .tc).ty.Contents (Elt F)) :
    slotPts c (rowOf j) f ⊢ (sched (F := F) m ρ).payload (barCell (sh (j.val + 1) c)) 0 j := by
  rw [payload_bar]; unfold barPay; rw [sh_forth]
  iintro H; iexists f; iexact H

theorem barPay_give1 (c : Dev nD) (f : (cc0_scratch1 : Ref sig .tc).ty.Contents (Elt F)) :
    slotPts c 2 f ⊢ (sched (F := F) m ρ).payload (barCell (sh 1 c)) 0 0 := barPay_give m ρ c 0 f
theorem barPay_give2 (c : Dev nD) (f : (cc0_scratch1 : Ref sig .tc).ty.Contents (Elt F)) :
    slotPts c 1 f ⊢ (sched (F := F) m ρ).payload (barCell (sh 2 c)) 0 1 := barPay_give m ρ c 1 f
theorem barPay_give3 (c : Dev nD) (f : (cc0_scratch1 : Ref sig .tc).ty.Contents (Elt F)) :
    slotPts c 0 f ⊢ (sched (F := F) m ρ).payload (barCell (sh 3 c)) 0 2 := barPay_give m ρ c 2 f

theorem slot_credit (i : Fin 3) : (slotM i : Memref sig .tc .vmem S1x768 .f32).view.dmaCredit = N := by revert i; decide

section Body

variable (K : Dev nD × Fin 7 → ℕ)

/-- The copy of the device's row into row `i` of the device `i + 1` places on (named `n` as the kernel computes it): it pays
    duty 0 of the sender's send cell `i` (the share lent comes back with it) and duty 0 of the receiver's receive cell `i`
    (the row landed). -/
theorem wp_send_row (c n : Dev nD) (i : Fin 3) (hn : n = sh (i.val + 1) c)
    {hsc : (slotM i : Memref sig (Dev.tc n : Thread nD τ).2.kind .vmem S1x768 .f32).view.ref.isScScratch = false}
    {hsrc : (lM : Memref sig .tc .vmem S1x768 .f32).view.WordExact} {hdst : (slotM i : Memref sig .tc .vmem S1x768 .f32).view.WordExact}
    {hsem : DmaTarget.Typed .vmem (.dma (recvS i)) (.remote (Dev.tc n : Thread nD τ) (slotM i : Memref sig .tc .vmem S1x768 .f32) (.dma (sendS i)) hsc)}
    {α : Type} {Q : α → sProp 𝕄} {k : PUnit → Prog (TpuEff nD τ sig (Elt F) Λ₀ .tc) α}
    (fn : (cc0_scratch1 : Ref sig .tc).ty.Contents (Elt F)) (W : Waits sig Unit) (O : CellTallies nD τ sig Unit) :
    iprop(cellInv ER (sched m ρ) (K (c, kS i)) (sendCell c i) ∗ cellInv ER (sched m ρ) (K (sh (i.val + 1) c, kR i)) (recvCell (sh (i.val + 1) c) i)
        ∗ lPts c (qs i) (lmax m ρ c) ∗ slotPts (sh (i.val + 1) c) i fn
        ∗ owes (c : Thread nD τ) (O + tallyAt (recvCell (sh (i.val + 1) c) i) () N) W
        ∗ dutyTok ER (sendCell c i) 0 (0 : Fin 3) ∗ reached ER (sendCell c i) 0
        ∗ dutyTok ER (recvCell (sh (i.val + 1) c) i) 0 (0 : Fin 3) ∗ reached ER (recvCell (sh (i.val + 1) c) i) 0)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc n : Thread nD τ) (slotM i) (.dma (sendS i)) hsc) (.dma (recvS i)) hsrc hdst hsem) k) Q) := by
  subst hn
  unfold lPts slotPts
  exact Rounds.wp_send_pointsTo 𝒱₀ ER (sched m ρ) (c : Thread nD τ) none (κ₁ := K (c, kS i)) (κ₂ := K (sh (i.val + 1) c, kR i))
    (src := lM) (dst := slotM i) (c' := (Dev.tc (sh (i.val + 1) c) : Thread nD τ)) (q := qs i) (fs := lmax m ρ c)
    (r₁ := 0) (r₂ := 0) (d₁ := (0 : Fin 3)) (d₂ := (0 : Fin 3)) (fd := fn)
    (by rw [duties_send]; exact Finset.mem_singleton_self _) (by rw [duties_recv]; exact Finset.mem_singleton_self _)
    () () N (by fin_cases i <;> rfl) (amount_send m ρ c i 0) (amount_recv m ρ (sh (i.val + 1) c) i 0) O rfl (W := W)
    (by rw [payload_send]; unfold sendPay lPts; exact BI.Entails.refl _)
    (by
      rw [payload_recv]; unfold recvPay slotPts; rw [sh_forth]
      refine Entails.of_eq (pointsTo_congr fun j hj => ?_)
      rw [show (lM : Memref sig .tc .vmem S1x768 .f32).view.read (Elt F) (lmax m ρ c) = lmax m ρ c from View.read_whole _ _]
      exact landed_congr i fn (lmax m ρ c) j hj)

set_option maxHeartbeats 3200000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost positions payToks creds scr
  rw [bigSep_fin7]
  iintro ⟨⟨⟨⟨#HR, ⟨HatB, HatS0, HatS1, HatS2, HatR0, HatR1, HatR2⟩, ⟨HtB1, HtB2, HtB3⟩, ⟨HtR1, HtR2, HtR3⟩, ⟨HtS0, HtS1, HtS2⟩⟩,
      ⟨HcB, HcR0, HcR1, HcR2⟩, #Hlev, ⟨%fl, Hl⟩, ⟨%fc, Hc⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the invariants and reached-marks this thread opens
  ihave #HIB := (inv_at m ρ K (c, 0)) $$ HR
  ihave #HIS0 := (inv_at m ρ K (c, 1)) $$ HR
  ihave #HIS1 := (inv_at m ρ K (c, 2)) $$ HR
  ihave #HIS2 := (inv_at m ρ K (c, 3)) $$ HR
  ihave #HIR0 := (inv_at m ρ K (c, 4)) $$ HR
  ihave #HIR1 := (inv_at m ρ K (c, 5)) $$ HR
  ihave #HIR2 := (inv_at m ρ K (c, 6)) $$ HR
  ihave #HIB1 := (inv_at m ρ K (sh 1 c, 0)) $$ HR
  ihave #HIB2 := (inv_at m ρ K (sh 2 c, 0)) $$ HR
  ihave #HIB3 := (inv_at m ρ K (sh 3 c, 0)) $$ HR
  ihave #HIV1 := (inv_at m ρ K (sh 1 c, 4)) $$ HR
  ihave #HIV2 := (inv_at m ρ K (sh 2 c, 5)) $$ HR
  ihave #HIV3 := (inv_at m ρ K (sh 3 c, 6)) $$ HR
  ihave #HrB1 := (reached_at m ρ K (sh 1 c, 0)) $$ HR
  ihave #HrB2 := (reached_at m ρ K (sh 2 c, 0)) $$ HR
  ihave #HrB3 := (reached_at m ρ K (sh 3 c, 0)) $$ HR
  ihave #HrV1 := (reached_at m ρ K (sh 1 c, 4)) $$ HR
  ihave #HrV2 := (reached_at m ρ K (sh 2 c, 5)) $$ HR
  ihave #HrV3 := (reached_at m ρ K (sh 3 c, 6)) $$ HR
  ihave #HrS0 := (reached_at m ρ K (c, 1)) $$ HR
  ihave #HrS1 := (reached_at m ρ K (c, 2)) $$ HR
  ihave #HrS2 := (reached_at m ρ K (c, 3)) $$ HR
  -- the three landing rows, apart
  ihave Hc3 := (Entails.of_eq (comm_split c fc)) $$ Hc
  icases Hc3 with ⟨Hrow0, Hrow1, Hrow2⟩
  simp only [dev1_eq c, dev2_eq c, dev3_eq c]
  -- the first signal, one place on: duty 0 of that barrier cell, with row 2
  iapply (Rounds.wp_signal 𝒱₀ ER (sched m ρ) (c : Thread nD τ) none (dst := (sh 1 c : Thread nD τ)) (κ := K (sh 1 c, 0))
      (d := (0 : Fin 3)) (by rw [duties_bar]; exact Finset.mem_univ _) ((amount_bar m ρ (sh 1 c) 0).trans (by decide)) () (O₁ c) rfl)
    $$ [HO HtB1 Hrow2]
  · isplitr; · iexact HIB1
    isplitl [HO]; · iexact HO
    isplitl [HtB1]; · iexact HtB1
    isplitl [Hrow2]; · iapply (barPay_give1 m ρ c fc); iexact Hrow2
    iexact HrB1
  iintro HO
  -- the second, two places on: duty 1, with row 1
  iapply (Rounds.wp_signal 𝒱₀ ER (sched m ρ) (c : Thread nD τ) none (dst := (sh 2 c : Thread nD τ)) (κ := K (sh 2 c, 0))
      (d := (1 : Fin 3)) (by rw [duties_bar]; exact Finset.mem_univ _) ((amount_bar m ρ (sh 2 c) 1).trans (by decide)) () (O₂ c) rfl)
    $$ [HO HtB2 Hrow1]
  · isplitr; · iexact HIB2
    isplitl [HO]; · iexact HO
    isplitl [HtB2]; · iexact HtB2
    isplitl [Hrow1]; · iapply (barPay_give2 m ρ c fc); iexact Hrow1
    iexact HrB2
  iintro HO
  -- the third, three places on: duty 2, with row 0
  iapply (Rounds.wp_signal 𝒱₀ ER (sched m ρ) (c : Thread nD τ) none (dst := (sh 3 c : Thread nD τ)) (κ := K (sh 3 c, 0))
      (d := (2 : Fin 3)) (by rw [duties_bar]; exact Finset.mem_univ _) ((amount_bar m ρ (sh 3 c) 2).trans (by decide)) () (O₃ c) rfl)
    $$ [HO HtB3 Hrow0]
  · isplitr; · iexact HIB3
    isplitl [HO]; · iexact HO
    isplitl [HtB3]; · iexact HtB3
    isplitl [Hrow0]; · iapply (barPay_give3 m ρ c fc); iexact Hrow0
    iexact HrB3
  iintro HO
  -- the block's row of column maxima into the device's own row
  iapply (wp_load 𝒱₀ (c : Thread nD τ) none Set.univ (m := xM) (Finset.subset_univ _)) $$ Hx; iintro Hx
  rw [read_x]
  iapply (wp_load 𝒱₀ (c : Thread nD τ) none Set.univ (m := lM) (Finset.subset_univ _)) $$ Hl; iintro Hl
  iapply (wp_store 𝒱₀ (c : Thread nD τ) none Set.univ (m := lM) (r := r0) (Mk := Finset.univ) (Finset.subset_univ _)) $$ Hl; iintro Hl
  rw [write_l, show k0_pay2 (xstg m ρ c) = lmax m ρ c from rfl]
  -- the wait for 3 on its own barrier cell, owing the three receive credits: the three rows it will fill come with it
  iapply (Rounds.wp_wait_rest_token 𝒱₀ ER (sched m ρ) (c : Thread nD τ) none (κ := K (c, 0))
      (wpE_semWait_eq 𝒱₀ (c : Thread nD τ) none Set.univ) (Set.mem_univ _) () (O := O₃ c) (W := W) (R := 0) (m := 0) (T := ∅)
      (by rw [expect_bar m ρ c]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn3, Hdst3⟩, ⟨%fn2, Hdst2⟩, ⟨%fn1, Hdst1⟩⟩
  -- the device's row in four shares
  ihave Hl4 := (l_shares c (lmax m ρ c)).1 $$ Hl
  icases Hl4 with ⟨HlA, HlB, HlC, HlD⟩
  -- the copy two places on, into row 1
  unfold O₃
  iapply (wp_send_row m ρ K c _ 1 (dev4_eq c) fn2 (insert (SemLoc.reg barS, ()) W) (O₄ c)) $$ [HlA Hdst2 HO HtS1 HtR2]
  · isplitr; · iexact HIS1
    isplitr; · iexact HIV2
    isplitl [HlA]; · iexact HlA
    isplitl [Hdst2]; · iexact Hdst2
    isplitl [HO]; · iexact HO
    isplitl [HtS1]; · iexact HtS1
    isplitr; · iexact HrS1
    isplitl [HtR2]; · iexact HtR2
    iexact HrV2
  iintro ⟨HcS1, HO⟩
  -- one place on, into row 0
  unfold O₄
  iapply (wp_send_row m ρ K c _ 0 (dev5_eq c) fn1 (insert (SemLoc.reg barS, ()) W) (O₅ c)) $$ [HlB Hdst1 HO HtS0 HtR1]
  · isplitr; · iexact HIS0
    isplitr; · iexact HIV1
    isplitl [HlB]; · iexact HlB
    isplitl [Hdst1]; · iexact Hdst1
    isplitl [HO]; · iexact HO
    isplitl [HtS0]; · iexact HtS0
    isplitr; · iexact HrS0
    isplitl [HtR1]; · iexact HtR1
    iexact HrV1
  iintro ⟨HcS0, HO⟩
  -- three places on, into row 2
  unfold O₅
  iapply (wp_send_row m ρ K c _ 2 (dev6_eq c) fn3 (insert (SemLoc.reg barS, ()) W) 0) $$ [HlC Hdst3 HO HtS2 HtR3]
  · isplitr; · iexact HIS2
    isplitr; · iexact HIV3
    isplitl [HlC]; · iexact HlC
    isplitl [Hdst3]; · iexact Hdst3
    isplitl [HO]; · iexact HO
    isplitl [HtS2]; · iexact HtS2
    isplitr; · iexact HrS2
    isplitl [HtR3]; · iexact HtR3
    iexact HrV3
  iintro ⟨HcS2, HO⟩
  -- the device's own row, read through the share kept
  unfold lPts
  iapply (wp_load 𝒱₀ (c : Thread nD τ) none Set.univ (m := lM) (View.setOn_subset_set _ _)) $$ HlD; iintro HlD
  rw [read_l]
  -- row 0 lands: the row of the device three places on
  iapply (Rounds.wp_wait_rest_token 𝒱₀ ER (sched m ρ) (c : Thread nD τ) none (κ := K (c, 4)) (sm := SemLoc.dma (recvS 0))
      (wpE_waitDma2_eq 𝒱₀ (c : Thread nD τ) none Set.univ) (Set.mem_univ _) () (O := 0) (W := insert (SemLoc.reg barS, ()) W) (R := 0) (m := 0) (T := ∅)
      (by rw [Nat.zero_add, expect_recv m ρ c 0])) $$ [HcR0 HO HatR0]
  · isplitr; · iexact HIR0
    isplitl [HcR0]; · iexact HcR0
    isplitl [HO]; · iexact HO
    isplitr; · rw [MayWait_zero]; iempintro
    iexact HatR0
  iintro ⟨HO, HatR0, -, Hpay⟩
  ihave Hrow0 := (Entails.of_eq (rest_recv m ρ c 0)) $$ Hpay
  unfold recvPay slotPts
  iapply (wp_load 𝒱₀ (c : Thread nD τ) none Set.univ (m := cM) (load_slot_sub 0)) $$ Hrow0; iintro Hrow0
  -- row 1: two places on
  iapply (Rounds.wp_wait_rest_token 𝒱₀ ER (sched m ρ) (c : Thread nD τ) none (κ := K (c, 5)) (sm := SemLoc.dma (recvS 1))
      (wpE_waitDma2_eq 𝒱₀ (c : Thread nD τ) none Set.univ) (Set.mem_univ _) () (O := 0)
      (W := insert (SemLoc.dma (recvS 0), ()) (insert (SemLoc.reg barS, ()) W)) (R := 0) (m := 0) (T := ∅)
      (by rw [Nat.zero_add, expect_recv m ρ c 1])) $$ [HcR1 HO HatR1]
  · isplitr; · iexact HIR1
    isplitl [HcR1]; · iexact HcR1
    isplitl [HO]; · iexact HO
    isplitr; · rw [MayWait_zero]; iempintro
    iexact HatR1
  iintro ⟨HO, HatR1, -, Hpay⟩
  ihave Hrow1 := (Entails.of_eq (rest_recv m ρ c 1)) $$ Hpay
  unfold recvPay slotPts
  iapply (wp_load 𝒱₀ (c : Thread nD τ) none Set.univ (m := cM) (load_slot_sub 1)) $$ Hrow1; iintro Hrow1
  -- row 2: one place on
  iapply (Rounds.wp_wait_rest_token 𝒱₀ ER (sched m ρ) (c : Thread nD τ) none (κ := K (c, 6)) (sm := SemLoc.dma (recvS 2))
      (wpE_waitDma2_eq 𝒱₀ (c : Thread nD τ) none Set.univ) (Set.mem_univ _) () (O := 0)
      (W := insert (SemLoc.dma (recvS 1), ()) (insert (SemLoc.dma (recvS 0), ()) (insert (SemLoc.reg barS, ()) W))) (R := 0) (m := 0) (T := ∅)
      (by rw [Nat.zero_add, expect_recv m ρ c 2])) $$ [HcR2 HO HatR2]
  · isplitr; · iexact HIR2
    isplitl [HcR2]; · iexact HcR2
    isplitl [HO]; · iexact HO
    isplitr; · rw [MayWait_zero]; iempintro
    iexact HatR2
  iintro ⟨HO, HatR2, -, Hpay⟩
  ihave Hrow2 := (Entails.of_eq (rest_recv m ρ c 2)) $$ Hpay
  unfold recvPay slotPts
  iapply (wp_load 𝒱₀ (c : Thread nD τ) none Set.univ (m := cM) (load_slot_sub 2)) $$ Hrow2; iintro Hrow2
  -- the result row
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]

  -- the three shares come back: the copies have read the row
  iapply (Rounds.wp_wait_rest_token 𝒱₀ ER (sched m ρ) (c : Thread nD τ) none (κ := K (c, 2)) (sm := SemLoc.dma (sendS 1))
      (wpE_waitDma2_eq 𝒱₀ (c : Thread nD τ) none Set.univ) (Set.mem_univ _) () (O := 0)
      (W := insert (SemLoc.dma (recvS 2), ()) (insert (SemLoc.dma (recvS 1), ()) (insert (SemLoc.dma (recvS 0), ()) (insert (SemLoc.reg barS, ()) W))))
      (R := 0) (m := 0) (T := ∅) (by rw [Nat.zero_add, expect_send m ρ c 1])) $$ [HcS1 HO HatS1]
  · isplitr; · iexact HIS1
    isplitl [HcS1]; · iexact HcS1
    isplitl [HO]; · iexact HO
    isplitr; · rw [MayWait_zero]; iempintro
    iexact HatS1
  iintro ⟨HO, HatS1, -, Hpay⟩
  ihave HlA := (Entails.of_eq (rest_send m ρ c 1)) $$ Hpay
  iapply (Rounds.wp_wait_rest_token 𝒱₀ ER (sched m ρ) (c : Thread nD τ) none (κ := K (c, 1)) (sm := SemLoc.dma (sendS 0))
      (wpE_waitDma2_eq 𝒱₀ (c : Thread nD τ) none Set.univ) (Set.mem_univ _) () (O := 0)
      (W := insert (SemLoc.dma (sendS 1), ()) (insert (SemLoc.dma (recvS 2), ()) (insert (SemLoc.dma (recvS 1), ()) (insert (SemLoc.dma (recvS 0), ()) (insert (SemLoc.reg barS, ()) W)))))
      (R := 0) (m := 0) (T := ∅) (by rw [Nat.zero_add, expect_send m ρ c 0])) $$ [HcS0 HO HatS0]
  · isplitr; · iexact HIS0
    isplitl [HcS0]; · iexact HcS0
    isplitl [HO]; · iexact HO
    isplitr; · rw [MayWait_zero]; iempintro
    iexact HatS0
  iintro ⟨HO, HatS0, -, Hpay⟩
  ihave HlB := (Entails.of_eq (rest_send m ρ c 0)) $$ Hpay
  iapply (Rounds.wp_wait_rest_token 𝒱₀ ER (sched m ρ) (c : Thread nD τ) none (κ := K (c, 3)) (sm := SemLoc.dma (sendS 2))
      (wpE_waitDma2_eq 𝒱₀ (c : Thread nD τ) none Set.univ) (Set.mem_univ _) () (O := 0)
      (W := insert (SemLoc.dma (sendS 0), ()) (insert (SemLoc.dma (sendS 1), ()) (insert (SemLoc.dma (recvS 2), ()) (insert (SemLoc.dma (recvS 1), ()) (insert (SemLoc.dma (recvS 0), ()) (insert (SemLoc.reg barS, ()) W))))))
      (R := 0) (m := 0) (T := ∅) (by rw [Nat.zero_add, expect_send m ρ c 2])) $$ [HcS2 HO HatS2]
  · isplitr; · iexact HIS2
    isplitl [HcS2]; · iexact HcS2
    isplitl [HO]; · iexact HO
    isplitr; · rw [MayWait_zero]; iempintro
    iexact HatS2
  iintro ⟨HO, HatS2, -, Hpay⟩
  ihave HlC := (Entails.of_eq (rest_send m ρ c 2)) $$ Hpay
  unfold sendPay
  -- the row whole again, the three landing rows one buffer again
  ihave Hl := (l_shares c (lmax m ρ c)).2 $$ [HlA HlB HlC HlD]
  · isplitl [HlA]; · iexact HlA
    isplitl [HlB]; · iexact HlB
    isplitl [HlC]; · iexact HlC
    unfold lPts; iexact HlD
  ihave Hc := (comm_join c _ _ _) $$ [Hrow0 Hrow1 Hrow2]
  · isplitl [Hrow0]; · unfold slotPts; iexact Hrow0
    isplitl [Hrow1]; · unfold slotPts; iexact Hrow1
    unfold slotPts; iexact Hrow2
  -- the six own cells close: their counters at zero are the core's again
  imod (Rounds.cell_close ER (sched m ρ) (Set.mem_univ (K (c, 1))) (fun h => h) (R := 0 + 1) (duties_later m ρ (sendCell c 0))) $$ [HatS0] with HzS0
  · isplitr; · iexact HIS0
    iexact HatS0
  imod (Rounds.cell_close ER (sched m ρ) (Set.mem_univ (K (c, 2))) (fun h => h) (R := 0 + 1) (duties_later m ρ (sendCell c 1))) $$ [HatS1] with HzS1
  · isplitr; · iexact HIS1
    iexact HatS1
  imod (Rounds.cell_close ER (sched m ρ) (Set.mem_univ (K (c, 3))) (fun h => h) (R := 0 + 1) (duties_later m ρ (sendCell c 2))) $$ [HatS2] with HzS2
  · isplitr; · iexact HIS2
    iexact HatS2
  imod (Rounds.cell_close ER (sched m ρ) (Set.mem_univ (K (c, 4))) (fun h => h) (R := 0 + 1) (duties_later m ρ (recvCell c 0))) $$ [HatR0] with HzR0
  · isplitr; · iexact HIR0
    iexact HatR0
  imod (Rounds.cell_close ER (sched m ρ) (Set.mem_univ (K (c, 5))) (fun h => h) (R := 0 + 1) (duties_later m ρ (recvCell c 1))) $$ [HatR1] with HzR1
  · isplitr; · iexact HIR1
    iexact HatR1
  imod (Rounds.cell_close ER (sched m ρ) (Set.mem_univ (K (c, 6))) (fun h => h) (R := 0 + 1) (duties_later m ρ (recvCell c 2))) $$ [HatR2] with HzR2
  · isplitr; · iexact HIR2
    iexact HatR2
  rw [wp_ret]; imodintro
  iapply Hk
  unfold bodyPost Φ₁ scr Dat.owesAt Pipeline.owesWithin
  rw [show (dats m ρ 0 c).owed t₀.succ = 0 from rfl, bigSep_fin6]
  isplitl [Hl Hc HzS0 HzS1 HzS2 HzR0 HzR1 HzR2]
  · isplitl [Hl Hc]
    · isplitl [Hl]
      · iexists _; iexact Hl
      · iexact Hc
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sendS 2), ()) (insert (SemLoc.dma (sendS 0), ()) (insert (SemLoc.dma (sendS 1), ()) (insert (SemLoc.dma (recvS 2), ()) (insert (SemLoc.dma (recvS 1), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.KernelIdeal.Coll

end
-- ==== Proof.KernelIdeal.Launch.lean ====
/-
  The launch: the ghost state of the protocol is created once for the whole mesh and dealt to the four devices,
  each device's semaphores at zero become its seven cells' invariants, the duty tokens travel to the devices that
  pay them, the credit each device is owed at launch is counted, and the pipeline's launch theorem turns
  "every device's body is proved" into the run of the whole program.
-/
import proofs.«900911_g7700000000000912_dist_max_ax0_shard0_i_m1536_n768_v7x_i4_bf16_1_alg».proof.Proof.KernelIdeal.Data

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m ρ 0 c).share w = fullShare := by unfold Dat.share; split <;> rfl

/-! ## The cells and the tokens of the whole mesh -/

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-- The twenty-eight cells of the protocol. -/
def collCells : Finset (GSem nD τ sig) := Finset.univ.map ⟨kcell, kcell_injective⟩

/-- The nine duties of a device's own cells: on which cell (the barrier three times, then the sends, then the
    receives), and which duty of it. -/
def tcell : Fin 9 → Fin 7 := fun
  | 0 => 0 | 1 => 0 | 2 => 0 | 3 => 1 | 4 => 2 | 5 => 3 | 6 => 4 | 7 => 5 | 8 => 6
def tduty : Fin 9 → Fin 3 := fun
  | 0 => 0 | 1 => 1 | 2 => 2 | 3 => 0 | 4 => 0 | 5 => 0 | 6 => 0 | 7 => 0 | 8 => 0

theorem tcell_tduty_injective : ∀ j j' : Fin 9, tcell j = tcell j' → tduty j = tduty j' → j = j' := by decide

abbrev tokOf (cj : Dev nD × Fin 9) : GSem nD τ sig × ℕ × Fin 3 := (kcell (cj.1, tcell cj.2), 0, tduty cj.2)

theorem tokOf_injective : Function.Injective (tokOf : Dev nD × Fin 9 → GSem nD τ sig × ℕ × Fin 3) := by
  rintro ⟨c, j⟩ ⟨c', j'⟩ h
  have h1 : ((c, tcell j) : Dev nD × Fin 7) = (c', tcell j') := kcell_injective (congrArg Prod.fst h)
  have h2 : tduty j = tduty j' := congrArg (fun x : GSem nD τ sig × ℕ × Fin 3 => x.2.2) h
  have hc : c = c' := congrArg Prod.fst h1
  have hk : tcell j = tcell j' := congrArg Prod.snd h1
  subst hc
  have hj : j = j' := tcell_tduty_injective j j' hk h2
  subst hj; rfl

/-- The thirty-six duty tokens of the protocol's one round. -/
def collToks : Finset (GSem nD τ sig × ℕ × Fin 3) := Finset.univ.map ⟨tokOf, tokOf_injective⟩

/-- The launch element: the pipeline's staging cells beside the protocol's. -/
def u₀ : UU :=
  (initOf (Pipeline.cells cfgs cellOf_inj) (Pipeline.launchToks cfgs cellOf_inj), initOf collCells collToks)

/-- The duty tokens of device `c`'s own cells, as minted. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch element deals device `c`: the round state of its seven cells, its positions and the
    reached-marks, the tokens of its own cells' duties. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the step over the whole mesh makes of it. -/
def G' (c : Dev nD) : sProp 𝕄 := iprop(∃ K, ghost m ρ K c)

theorem sep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- Funding: the protocol's half of the launch element is every device's deal. -/
theorem fund_coll : BI.own (ER (initOf collCells collToks)) ⊢ (|==> bigSep Finset.univ (G m ρ) : sProp 𝕄) := by
  have hX (Φ : GSem nD τ sig → sProp 𝕄) : bigSep collCells Φ = bigSep Finset.univ fun c : Dev nD => bigSep Finset.univ fun k : Fin 7 => Φ (kcell (c, k)) := by
    unfold collCells; rw [bigSep_map, bigSep_univ_prod]; rfl
  have hT : bigSep collToks (fun x => (dutyTok ER x.1 x.2.1 x.2.2 : sProp 𝕄)) = bigSep Finset.univ fun c : Dev nD => toks c := by
    unfold collToks; rw [bigSep_map, bigSep_univ_prod]
    exact bigSep_congr fun c _ => by unfold toks; rw [sep_fin9]; rfl
  iintro HX
  imod (Rounds.fund ER (sched m ρ) collCells collToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the six own ones scoped to the kernel, the barrier the runtime's -/

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, sep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

/-- One device: its seven counters at zero and round states become its seven cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens around the mesh and regrouping -/

theorem ghost_intro (K : Dev nD × Fin 7 → ℕ) (c : Dev nD) : iprop(records m ρ K ∗ positions c ∗ payToks c) ⊢ G' m ρ c := by
  unfold G' ghost
  iintro H
  iexists K
  iexact H

/-- Barrier duty `d` of a device is paid by the device `3 - d` places on: summed over the mesh, every device holds
    duty `d` of the device `d + 1` places on. The same for the receive cell of row `i`. The send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv shE1 (fun c : Dev nD => (dutyTok ER (barCell c) 0 (0 : Fin 3) : sProp 𝕄)),
    bigSep_univ_equiv shE2 (fun c : Dev nD => (dutyTok ER (barCell c) 0 (1 : Fin 3) : sProp 𝕄)),
    bigSep_univ_equiv shE3 (fun c : Dev nD => (dutyTok ER (barCell c) 0 (2 : Fin 3) : sProp 𝕄)),
    bigSep_univ_equiv shE1 (fun c : Dev nD => (dutyTok ER (recvCell c 0) 0 (0 : Fin 3) : sProp 𝕄)),
    bigSep_univ_equiv shE2 (fun c : Dev nD => (dutyTok ER (recvCell c 1) 0 (0 : Fin 3) : sProp 𝕄)),
    bigSep_univ_equiv shE3 (fun c : Dev nD => (dutyTok ER (recvCell c 2) 0 (0 : Fin 3) : sProp 𝕄))]
  iintro ⟨B0, B1, B2, S0, S1, S2, R0, R1, R2⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htk

/-- The step over the whole mesh: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What the mesh owes device `c` at launch: each summand of what a device owes is a tally on a cell of the device a fixed
    number of places on, so summed over the mesh it is that tally on `c`'s own cell; the three units on the barrier cell add up. -/
theorem launch_creds (c : Dev nD) : (Pipeline.launchCred O₀ c : sProp 𝕄) ⊢ creds c := by
  have hb (k k' : ℕ) (h1 : ∀ c, sh k (sh k' c) = c) (h2 : ∀ d, sh k' (sh k d) = d) :
      (Pipeline.launchCred (fun d : Dev nD => (tallyAt (barCell (sh k d)) () 1 : CellTallies nD τ sig Unit)) c : sProp 𝕄) ⊢ cred (tallyAt (barCell c) () 1) :=
    Pipeline.launchCred_tallyAt (.reg barS) (sh k) (sh k') h1 h2 () 1 c
  have hr (i : Fin 3) (k k' : ℕ) (h1 : ∀ c, sh k (sh k' c) = c) (h2 : ∀ d, sh k' (sh k d) = d) :
      (Pipeline.launchCred (fun d : Dev nD => (tallyAt (recvCell (sh k d) i) () N : CellTallies nD τ sig Unit)) c : sProp 𝕄) ⊢ cred (tallyAt (recvCell c i) () N) :=
    Pipeline.launchCred_tallyAt (.dma (recvS i)) (sh k) (sh k') h1 h2 () N c
  have e0 : (Pipeline.launchCred O₀ c : sProp 𝕄) = iprop(Pipeline.launchCred O₁ c ∗ Pipeline.launchCred (fun d : Dev nD => (tallyAt (barCell (sh 1 d)) () 1 : CellTallies nD τ sig Unit)) c) :=
    Pipeline.launchCred_add O₁ (fun d : Dev nD => (tallyAt (barCell (sh 1 d)) () 1 : CellTallies nD τ sig Unit)) c
  have e1 : (Pipeline.launchCred O₁ c : sProp 𝕄) = iprop(Pipeline.launchCred O₂ c ∗ Pipeline.launchCred (fun d : Dev nD => (tallyAt (barCell (sh 2 d)) () 1 : CellTallies nD τ sig Unit)) c) :=
    Pipeline.launchCred_add O₂ (fun d : Dev nD => (tallyAt (barCell (sh 2 d)) () 1 : CellTallies nD τ sig Unit)) c
  have e2 : (Pipeline.launchCred O₂ c : sProp 𝕄) = iprop(Pipeline.launchCred O₃ c ∗ Pipeline.launchCred (fun d : Dev nD => (tallyAt (barCell (sh 3 d)) () 1 : CellTallies nD τ sig Unit)) c) :=
    Pipeline.launchCred_add O₃ (fun d : Dev nD => (tallyAt (barCell (sh 3 d)) () 1 : CellTallies nD τ sig Unit)) c
  have e3 : (Pipeline.launchCred O₃ c : sProp 𝕄) = iprop(Pipeline.launchCred O₄ c ∗ Pipeline.launchCred (fun d : Dev nD => (tallyAt (recvCell (sh 2 d) 1) () N : CellTallies nD τ sig Unit)) c) :=
    Pipeline.launchCred_add O₄ (fun d : Dev nD => (tallyAt (recvCell (sh 2 d) 1) () N : CellTallies nD τ sig Unit)) c
  have e4 : (Pipeline.launchCred O₄ c : sProp 𝕄) = iprop(Pipeline.launchCred O₅ c ∗ Pipeline.launchCred (fun d : Dev nD => (tallyAt (recvCell (sh 1 d) 0) () N : CellTallies nD τ sig Unit)) c) :=
    Pipeline.launchCred_add O₅ (fun d : Dev nD => (tallyAt (recvCell (sh 1 d) 0) () N : CellTallies nD τ sig Unit)) c
  have e5 : (Pipeline.launchCred O₅ c : sProp 𝕄) = iprop(Pipeline.launchCred (fun _ : Dev nD => (0 : CellTallies nD τ sig Unit)) c ∗ Pipeline.launchCred (fun d : Dev nD => (tallyAt (recvCell (sh 3 d) 2) () N : CellTallies nD τ sig Unit)) c) :=
    Pipeline.launchCred_add (fun _ : Dev nD => (0 : CellTallies nD τ sig Unit)) (fun d : Dev nD => (tallyAt (recvCell (sh 3 d) 2) () N : CellTallies nD τ sig Unit)) c
  have h3 : iprop(cred (tallyAt (barCell c) () 1) ∗ cred (tallyAt (barCell c) () 1) ∗ cred (tallyAt (barCell c) () 1)) ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  rw [e0, e1, e2, e3, e4, e5]
  unfold creds
  iintro ⟨⟨⟨⟨⟨⟨-, H2⟩, H0⟩, H1⟩, B3⟩, B2⟩, B1⟩
  ihave C1 := (hb 1 3 sh13 sh31) $$ B1
  ihave C2 := (hb 2 2 sh22 sh22) $$ B2
  ihave C3 := (hb 3 1 sh31 sh13) $$ B3
  ihave V0 := (hr 0 1 3 sh13 sh31) $$ H0
  ihave V1 := (hr 1 2 2 sh22 sh22) $$ H1
  ihave V2 := (hr 2 3 1 sh31 sh13) $$ H2
  isplitl [C1 C2 C3]
  · iapply h3
    isplitl [C1]; · iexact C1
    isplitl [C2]; · iexact C2
    iexact C3
  isplitl [V0]; · iexact V0
  isplitl [V1]; · iexact V1
  iexact V2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N)
      = iprop(scr c ∗ bigSep Finset.univ fun k : Fin 6 => semVal ((c : Thread nD τ), osem k) 0) from rfl, scopedRest0_eq]
  unfold scr
  iintro ⟨Hr, Hz⟩
  isplitr; · iempintro
  isplitl [Hz]; · unfold Pipeline.ownSems0; iexact Hz
  iexact Hr

/-- The pipeline waits only on its two staging cells, which are none of the protocol's. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, given every
    device's body: every weakly fair execution of @main terminates, and every final state has each device's
    arrays at the contents the proof data computes. -/
theorem run_main (hbody : ∀ c : Dev nD, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_coll m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array's one block is the whole array: after the one write-back it holds what the body left in the
    staging buffer, the computed row. -/
theorem finalA_out (c : Dev nD) : finalA m ρ c (1 : Fin 2) = outAt m ρ c := by
  unfold finalA
  rw [show cfg0.N = (t₀ : Fin cfg0.N).val + 1 from rfl, (dats m ρ 0 c).arrAt_succ (1 : Fin 2) t₀, if_pos (flush0_1 t₀)]
  exact Memref.write_access_unit_zero_univ (Elt F) main_v1 (off := fun a => win0_1.index t₀ a * win0_1.size a)
    (funext fun a => Nat.zero_mul _) _ _ _

/-- info: 'Cert.KernelIdeal.Coll.run_main' depends on axioms: [propext, Classical.choice, Quot.sound] -/
#guard_msgs in #print axioms run_main

end Cert.KernelIdeal.Coll

end
-- ==== Proof.KernelIdeal.Frames.lean ====
/-
  The program's run on the four devices with both facts about the final memory named: each device's argument block
  ends as it was, and each device's result array ends at the maximum of the four devices' rows of column maxima.
-/
import proofs.«900911_g7700000000000912_dist_max_ax0_shard0_i_m1536_n768_v7x_i4_bf16_1_alg».proof.Proof.KernelIdeal.Body
import proofs.«900911_g7700000000000912_dist_max_ax0_shard0_i_m1536_n768_v7x_i4_bf16_1_alg».proof.Proof.KernelIdeal.Launch

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The staging buffer's block is the whole argument array (no grid: one block, at offset zero). -/
theorem xstg_eq (c : Dev nD) : xstg m ρ c = m ((c : Thread nD τ).loc main_arg0) := by
  unfold xstg
  exact Memref.read_access_unit_zero (Elt F) main_arg0 (off := fun a => win0_0.index (0 : Fin 1) a * win0_0.size a)
    (funext fun a => Nat.zero_mul _) _ _

/-- Every weakly fair execution of the four threads ends, faults nowhere, leaves each device's argument block unchanged
    and each device's result array at `outAt`. -/
theorem run_both :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨((h c (1 : Fin 2)).trans (finalA_out m ρ c)), ((h c (0 : Fin 2)).trans (finalA_x m ρ c))⟩)
    (run_main m ρ (body_obligation m ρ))

end Cert.KernelIdeal.Coll

end
-- ==== Proof.KernelIdeal.Recvd.lean ====
/-
  What a device reads back from a landing row is the row that landed there: the load of row `i` of the three-row
  buffer, with its unit axis dropped, is the read through the view the row was written through, and a view reads
  back on its whole index set what was written on it.
-/
import proofs.«900911_g7700000000000912_dist_max_ax0_shard0_i_m1536_n768_v7x_i4_bf16_1_alg».proof.Proof.KernelIdeal.Proto
import Idealize.ShloMosaic.Lib.Pipeline.Value

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The received row, its leading unit axis dropped, is the row sent. -/
theorem recvd_cast (i : Fin 3) (v : (cc0_scratch0 : Ref sig .tc).ty.Contents (Elt F)) :
    shapeCast S1x768 (recvd (F := F) i v) shapeCasts_S1x1x768_S1x768 = v :=
  (Memref.read_squeeze_slice (cM : Memref sig .tc .vmem S3x1x768 .f32) (rectC i) (fun _ => rfl)
      squeezes_S1x1x768_S1x768 shapeCasts_S1x1x768_S1x768 (landed i v)).symm.trans
    (View.read_write_univ _ v)

/-- info: 'Cert.KernelIdeal.Coll.recvd_cast' depends on axioms: [propext, Classical.choice, Quot.sound] -/
#guard_msgs in #print axioms recvd_cast

end Cert.KernelIdeal.Coll

end
-- ==== Proof.Value.lean ====
/-
  The value bridge. At the ideal instance (floats are extended reals, `maximumf` is `max`) the row a device ends
  with — the column maxima of its own block of rows, then the maximum with each of the three rows received — is
  the reference's column maxima of the whole array. Both sides are folds of `max` from the same starting value over
  the rows of a column; a fold of `max` is characterised by its upper bounds, the four blocks of 1536 rows cover the
  6144 rows, and so the two folds have the same upper bounds: no finiteness is used, and the order in which the
  three rows arrive does not matter.
-/
import proofs.«900911_g7700000000000912_dist_max_ax0_shard0_i_m1536_n768_v7x_i4_bf16_1_alg».proof.Proof.Gen.KernelIdeal.Skeleton
import proofs.«900911_g7700000000000912_dist_max_ax0_shard0_i_m1536_n768_v7x_i4_bf16_1_alg».proof.Proof.Gen.ReferenceIdeal.Read
import Idealize.ShloMosaic.Lib.Layout
import Idealize.ShloMosaic.Lib.ValueLayout
import Idealize.ShloMosaic.PureOps.Ideal.Laws
import Mathlib.Data.Finset.Fold

noncomputable section

namespace Cert.ValueBridge

open Idealize.ShloMosaic Idealize.ShloMosaic.ValueIdx Idealize.SL.Sem

/-! ## The specification: the fold of `max` down a column -/

/-- The fold of `max` from `b` over the `n` rows of column `j` of an `n × m` array of extended reals. -/
def colMax {n m : ℕ} (b : EReal) (Y : (⟨2, ![n, m]⟩ : Shape).Idx → EReal) (j : Fin m) : EReal :=
  (Finset.univ : Finset (Fin n)).fold max b fun r => Y (ix2 r j)

/-- Its upper bounds are the upper bounds of the starting value and of every element of the column. -/
theorem colMax_le_iff {n m : ℕ} (b : EReal) (Y : (⟨2, ![n, m]⟩ : Shape).Idx → EReal) (j : Fin m) (z : EReal) :
    colMax b Y j ≤ z ↔ b ≤ z ∧ ∀ r : Fin n, Y (ix2 r j) ≤ z := by
  unfold colMax
  rw [Finset.fold_max_le]
  simp only [Finset.mem_univ, true_implies]

/-- Reducing an `n × m` array over its rows, the source index over the kept index `j` at row `r` is `(r, j)`. -/
theorem lift_rows {n m : ℕ} (h : (⟨2, ![n, m]⟩ : Shape).Reduces [0] ⟨1, ![m]⟩) (j : (⟨1, ![m]⟩ : Shape).Idx)
    (r : Fin n) : h.lift j r = ix2 r (j 0) := by
  funext a
  apply Fin.ext
  match a with
  | ⟨0, _⟩ => rfl
  | ⟨1, _⟩ => rfl

/-! ## The four blocks cover the rows -/

/-- Row `i` of block `d` (of four blocks of 1536 rows) is row `1536 d + i` of the whole array. -/
theorem block_row (X : (⟨2, ![6144, 768]⟩ : Shape).Idx → EReal) (d : Fin 4) (i : Fin 1536) (j : Fin 768) :
    (Layout.block ⟨2, ![1536, 768]⟩ ⟨2, ![6144, 768]⟩ 0 4 d X) (ix2 i j)
      = X (ix2 ⟨d.val * 1536 + i.val, by omega⟩ j) := by
  rw [Layout.block_apply]
  congr 1
  funext a
  apply Fin.ext
  match a with
  | ⟨0, _⟩ => rfl
  | ⟨1, _⟩ => rfl

/-- The maximum of the four blocks' column maxima, the blocks taken in any order that names them all, is the
    column maximum of the whole array: `z` bounds the left side iff it bounds every row of every block, iff it
    bounds every row `r = 1536 (r / 1536) + r % 1536` of the whole. -/
theorem colMax_blocks (b : EReal) (X : (⟨2, ![6144, 768]⟩ : Shape).Idx → EReal)
    (x : Fin 4 → (⟨2, ![1536, 768]⟩ : Shape).Idx → EReal)
    (hx : ∀ d : Fin 4, x d = Layout.block ⟨2, ![1536, 768]⟩ ⟨2, ![6144, 768]⟩ 0 4 d X)
    (c p1 p2 p3 : Fin 4) (hall : ∀ d : Fin 4, d = c ∨ d = p1 ∨ d = p2 ∨ d = p3) (j : Fin 768) :
    max (max (max (colMax b (x c) j) (colMax b (x p1) j)) (colMax b (x p2) j)) (colMax b (x p3) j)
      = colMax b X j := by
  have hblk : ∀ (d : Fin 4) (z : EReal), colMax b (x d) j ≤ z ↔
      b ≤ z ∧ ∀ i : Fin 1536, X (ix2 ⟨d.val * 1536 + i.val, by omega⟩ j) ≤ z := by
    intro d z
    rw [colMax_le_iff, hx d]
    simp only [block_row]
  refine eq_of_forall_ge_iff fun z => ?_
  simp only [max_le_iff, hblk, colMax_le_iff]
  constructor
  · rintro ⟨⟨⟨⟨hb, hc⟩, _, h1⟩, _, h2⟩, _, h3⟩
    have hA : ∀ (d : Fin 4) (i : Fin 1536), X (ix2 ⟨d.val * 1536 + i.val, by omega⟩ j) ≤ z := by
      intro d
      rcases hall d with rfl | rfl | rfl | rfl
      exacts [hc, h1, h2, h3]
    refine ⟨hb, fun r => ?_⟩
    have h := hA ⟨r.val / 1536, by omega⟩ ⟨r.val % 1536, Nat.mod_lt _ (by norm_num)⟩
    have e : (⟨r.val / 1536 * 1536 + r.val % 1536, by omega⟩ : Fin 6144) = r :=
      Fin.ext (Nat.div_add_mod' _ _)
    rwa [e] at h
  · rintro ⟨hb, h⟩
    exact ⟨⟨⟨⟨hb, fun i => h _⟩, hb, fun i => h _⟩, hb, fun i => h _⟩, hb, fun i => h _⟩

/-! ## The two programs' terms read at an index -/

/-- The value both reductions start from: the pattern `0xFF800000` read as an extended real. -/
abbrev negInf : EReal := FloatOps.ofBits (F := Ideal) .f32 0xFF800000#32

section Payloads

open Cert.KernelIdeal Cert.KernelIdeal.Gen

variable {F : FTy → Type} [FloatOps F]

/-- The kernel's four payload terms, written out (at any float instance): the block's reduction between its shape
    casts, and the three elementwise maxima with a received row. -/
theorem pay2_eq (v : Vec F S1536x768 .f32) :
    k0_pay2 v = shapeCast S1x768 (shapeCast S1x768 (multiReduction .maximumf [0] S768
      (shapeCast S1536x768 v shapeCasts_S1536x768_S1536x768) 0xFF800000#32 reduces_S1536x768_S768 (.inl rfl) rfl)
      shapeCasts_S768_S1x768) shapeCasts_S1x768_S1x768 := rfl

theorem pay3_eq (a : Vec F S1x768 .f32) (r : Vec F S1x1x768 .f32) :
    k0_pay3 a r = maximumf a (shapeCast S1x768 r shapeCasts_S1x1x768_S1x768) := rfl

theorem pay4_eq (a : FVec F S1x768 .f32) (r : Vec F S1x1x768 .f32) :
    k0_pay4 a r = maximumf a (shapeCast S1x768 r shapeCasts_S1x1x768_S1x768) := rfl

theorem pay1_eq (a : FVec F S1x768 .f32) (r : Vec F S1x1x768 .f32) :
    k0_pay1 a r = maximumf a (shapeCast S1x768 r shapeCasts_S1x1x768_S1x768) := rfl

/-- A device's row: at column `j` the fold of `max` over the 1536 rows of its block. -/
theorem pay2_apply (v : Vec Ideal S1536x768 .f32) (u : Fin 1) (j : Fin 768) :
    k0_pay2 (F := Ideal) v (ix2 u j) = colMax negInf v j := by
  rw [pay2_eq, shapeCast_self, shapeCast_a_1a_apply, shapeCast_self]
  refine (Ideal.multiReduction_maximumf_single v _ reduces_S1536x768_S768 _ _ (ix1 j)).trans ?_
  exact Finset.fold_congr fun r _ => congrArg v (lift_rows reduces_S1536x768_S768 (ix1 j) r)

end Payloads

/-- The reference's row: at column `j` the fold of `max` over the 6144 rows of the array. -/
theorem ref_apply (X : (⟨Cert.ReferenceIdeal.S6144x768, .f32⟩ : BufTy).Contents (Elt Ideal)) (u : Fin 1) (j : Fin 768) :
    Cert.ReferenceIdeal.Read.val_main_v1 (F := Ideal) X (ix2 u j) = colMax negInf X j := by
  have h : Cert.ReferenceIdeal.S6144x768.Reduces [0] Cert.ReferenceIdeal.S768 := by decide
  rw [Cert.ReferenceIdeal.Read.val_main_v1_apply]
  unfold Cert.ReferenceIdeal.Read.val_main_v0
  rw [Host.reduce_eq_fold_single (FloatOps.maximumf (F := Ideal) (φ := .f32)) X _ _ h]
  exact Finset.fold_congr fun r _ => congrArg X (lift_rows h _ r)

/-! ## The bridge -/

open Cert.KernelIdeal Cert.KernelIdeal.Gen in
/-- On every device, whichever of the other three devices each received row comes from, the row written out is
    the reference's result. -/
theorem out_eq
    (X : (⟨Cert.ReferenceIdeal.S6144x768, .f32⟩ : BufTy).Contents (Elt Ideal))
    (x : Dev 4 → Vec Ideal S1536x768 .f32)
    (hx : ∀ d : Dev 4, x d = Layout.block ⟨2, ![1536, 768]⟩ ⟨2, ![6144, 768]⟩ 0 4 d X)
    (c p1 p2 p3 : Dev 4) (hall : ∀ d : Dev 4, d = c ∨ d = p1 ∨ d = p2 ∨ d = p3)
    (r1 r2 r3 : Vec Ideal S1x1x768 .f32)
    (h1 : shapeCast S1x768 r1 shapeCasts_S1x1x768_S1x768 = k0_pay2 (F := Ideal) (x p1))
    (h2 : shapeCast S1x768 r2 shapeCasts_S1x1x768_S1x768 = k0_pay2 (F := Ideal) (x p2))
    (h3 : shapeCast S1x768 r3 shapeCasts_S1x1x768_S1x768 = k0_pay2 (F := Ideal) (x p3)) :
    k0_pay1 (F := Ideal) (k0_pay4 (k0_pay3 (k0_pay2 (x c)) r1) r2) r3
      = Cert.ReferenceIdeal.Read.val_main_v1 (F := Ideal) X := by
  funext i
  obtain ⟨u, j, rfl⟩ : ∃ (u : Fin 1) (j : Fin 768), i = ix2 u j := ⟨i 0, i 1, eq_ix2 i⟩
  rw [ref_apply, pay1_eq, pay4_eq, pay3_eq, h1, h2, h3, maximumf_apply, maximumf_apply, maximumf_apply,
    pay2_apply, pay2_apply, pay2_apply, pay2_apply]
  exact colMax_blocks negInf X x hx c p1 p2 p3 hall j

/-- info: 'Cert.ValueBridge.out_eq' depends on axioms: [propext, Classical.choice, Quot.sound] -/
#guard_msgs in #print axioms out_eq

end Cert.ValueBridge

end
-- ==== Proof.lean ====
/-
  Four devices each hold 1536 rows of a 6144 x 768 array. Each takes the column maxima of its rows, the four exchange
  their rows of maxima, and each ends with the maximum of the four: the column maxima of the whole array, which is what
  the one-device reference computes. Over the extended reals the maximum is associative, commutative and idempotent, so
  the order in which a device folds the rows it receives does not matter and no finiteness is used.

  The word-level program and its idealization are the same text (the ideal pass rewrote nothing), so one proof, generic
  in the float instance, gives both frames; the reference's frame is its run with the result dropped.
-/
import proofs.«900911_g7700000000000912_dist_max_ax0_shard0_i_m1536_n768_v7x_i4_bf16_1_alg».proof.Defs
import proofs.«900911_g7700000000000912_dist_max_ax0_shard0_i_m1536_n768_v7x_i4_bf16_1_alg».proof.Proof.Gen.Kernel
import proofs.«900911_g7700000000000912_dist_max_ax0_shard0_i_m1536_n768_v7x_i4_bf16_1_alg».proof.Proof.Gen.KernelIdeal
import proofs.«900911_g7700000000000912_dist_max_ax0_shard0_i_m1536_n768_v7x_i4_bf16_1_alg».proof.Proof.Gen.ReferenceIdeal
import proofs.«900911_g7700000000000912_dist_max_ax0_shard0_i_m1536_n768_v7x_i4_bf16_1_alg».proof.Proof.Gen.Pre_finite_inputs_Kernel
import proofs.«900911_g7700000000000912_dist_max_ax0_shard0_i_m1536_n768_v7x_i4_bf16_1_alg».proof.Proof.Gen.Pre_finite_inputs_ReferenceIdeal
import proofs.«900911_g7700000000000912_dist_max_ax0_shard0_i_m1536_n768_v7x_i4_bf16_1_alg».proof.Proof.Gen.ReferenceIdeal.Run
import proofs.«900911_g7700000000000912_dist_max_ax0_shard0_i_m1536_n768_v7x_i4_bf16_1_alg».proof.Proof.Gen.ReferenceIdeal.Read
import proofs.«900911_g7700000000000912_dist_max_ax0_shard0_i_m1536_n768_v7x_i4_bf16_1_alg».proof.Proof.Kernel.Frames
import proofs.«900911_g7700000000000912_dist_max_ax0_shard0_i_m1536_n768_v7x_i4_bf16_1_alg».proof.Proof.KernelIdeal.Frames
import proofs.«900911_g7700000000000912_dist_max_ax0_shard0_i_m1536_n768_v7x_i4_bf16_1_alg».proof.Proof.KernelIdeal.Recvd
import proofs.«900911_g7700000000000912_dist_max_ax0_shard0_i_m1536_n768_v7x_i4_bf16_1_alg».proof.Proof.Value
import Idealize.ShloMosaic.Adequacy
import Idealize.ShloMosaic.Init

noncomputable section

namespace Cert.Proof

open Idealize.ShloMosaic Idealize.SL.Sem

theorem frame_k : Cert.frame_Kernel := fun m g _ =>
  (θ_run Cert.Kernel.defs _ _).mono (fun _ h c => (h c).2) (Cert.Kernel.Coll.run_both (F := Bits) m g)

theorem frame_ki : Cert.frame_KernelIdeal := fun m g _ =>
  (θ_run Cert.KernelIdeal.defs _ _).mono (fun _ h c => (h c).2) (Cert.KernelIdeal.Coll.run_both (F := Ideal) m g)

theorem frame_ri : Cert.frame_ReferenceIdeal := fun m g _ =>
  (θ_run Cert.ReferenceIdeal.defs _ _).mono (fun _ h c => (h c).2) (Cert.ReferenceIdeal.Value.run (F := Ideal) m g)

open Cert.KernelIdeal.Coll in
/-- Every device is the device itself or one of the three others, counted one, two and three places back. -/
theorem all_four (c d : Dev Cert.KernelIdeal.nD) : d = c ∨ d = sh 3 c ∨ d = sh 2 c ∨ d = sh 1 c := by revert c d; decide

open Cert.KernelIdeal.Coll in
/-- Both programs end, the reference at the column maxima of the whole array and every device of the kernel at the same row. -/
theorem algebraic : Cert.algebraic_KernelIdeal_ReferenceIdeal := by
  intro m g m' g' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩) (run_both (F := Ideal) m g)
    exact Cert.ValueBridge.out_eq _ (fun d => xstg m g d) (fun d => (xstg_eq m g d).trans (hagree d)) c (sh 3 c) (sh 2 c) (sh 1 c) (all_four c)
      _ _ _ (recvd_cast 0 _) (recvd_cast 1 _) (recvd_cast 2 _)
  · exact (θ_run Cert.ReferenceIdeal.defs _ _).mono (fun _ h => ⟨(h 0).1.trans (Cert.ReferenceIdeal.Read.val_main_v1_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
